-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg5 : FVec F S10 .f32) (main_v13 : IVec S_ 1) (main_v16 : IVec S16x10 1) : IVec S_ 1 :=
  let main_c_5 : IVec S_ 1 := constantI S_ 1 1#1
  let main_v17 : IVec S_ 1 := (fun x v => Host.reduce IntOp.andi x v reducesTo_S16x10_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x10 .f32) (main_arg5 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x10 .f32 := Host.absf main_arg4
  let main_cst_4 : FVec F S_ .f32 := constant S_ .f32 0x7F800000#32
  let main_v15 : FVec F S16x10 .f32 := broadcastInDim S16x10 ![] bcast_S_S16x10 main_cst_4
  let main_v16 : IVec S16x10 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x10 : Shape := ⟨2, ![100000, 10]⟩
abbrev S10000x10 : Shape := ⟨2, ![10000, 10]⟩
abbrev S3300000x10 : Shape := ⟨2, ![3300000, 10]⟩
abbrev S1x10 : Shape := ⟨2, ![1, 10]⟩
abbrev S10000 : Shape := ⟨1, ![10000]⟩
abbrev S10000x1 : Shape := ⟨2, ![10000, 1]⟩

abbrev nBuf : Space → Nat
  | .hbm => 79
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x10, .f32⟩
  | .hbm, ⟨5, _⟩ => ⟨S10, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S3300000, .i32⟩
  | .hbm, ⟨25, _⟩ => ⟨S3300000, .i1⟩
  | .hbm, ⟨26, _⟩ => ⟨S_, .i32⟩
  | .hbm, ⟨27, _⟩ => ⟨S3300000, .i32⟩
  | .hbm, ⟨28, _⟩ => ⟨S3300000, .i32⟩
  | .hbm, ⟨29, _⟩ => ⟨S3300000, .i32⟩
  | .hbm, ⟨30, _⟩ => ⟨S3300000x1, .i32⟩
  | .hbm, ⟨31, _⟩ => ⟨S3300000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S3300000, .f32⟩
  | .hbm, ⟨42, _⟩ => ⟨S100000x16, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x16, .f32⟩
  | .hbm, ⟨52, _⟩ => ⟨S3300000x1, .f32⟩
  | .hbm, ⟨53, _⟩ => ⟨S3300000x16, .f32⟩
  | .hbm, ⟨54, _⟩ => ⟨S3300000x16, .f32⟩
  | .hbm, ⟨55, _⟩ => ⟨S_, .f32⟩
  | .hbm, ⟨56, _⟩ => ⟨S100000x16, .f32⟩
  | .hbm, ⟨57, _⟩ => ⟨S3300000x1, .i32⟩
  | .hbm, ⟨58, _⟩ => ⟨S100000x16, .f32⟩
  | .hbm, ⟨59, _⟩ => ⟨S1x16, .f32⟩
  | .hbm, ⟨60, _⟩ => ⟨S100000x10, .f32⟩
  | .hbm, ⟨61, _⟩ => ⟨S_, .i32⟩
  | .hbm, ⟨62, _⟩ => ⟨S3300000, .i32⟩
  | .hbm, ⟨63, _⟩ => ⟨S3300000, .i1⟩
  | .hbm, ⟨64, _⟩ => ⟨S_, .i32⟩
  | .hbm, ⟨65, _⟩ => ⟨S3300000, .i32⟩
  | .hbm, ⟨66, _⟩ => ⟨S3300000, .i32⟩
  | .hbm, ⟨67, _⟩ => ⟨S3300000, .i32⟩
  | .hbm, ⟨68, _⟩ => ⟨S3300000x1, .i32⟩
  | .hbm, ⟨69, _⟩ => ⟨S3300000x10, .f32⟩
  | .hbm, ⟨70, _⟩ => ⟨S3300000x1, .f32⟩
  | .hbm, ⟨71, _⟩ => ⟨S3300000x10, .f32⟩
  | .hbm, ⟨72, _⟩ => ⟨S3300000x10, .f32⟩
  | .hbm, ⟨73, _⟩ => ⟨S_, .f32⟩
  | .hbm, ⟨74, _⟩ => ⟨S100000x10, .f32⟩
  | .hbm, ⟨75, _⟩ => ⟨S3300000x1, .i32⟩
  | .hbm, ⟨76, _⟩ => ⟨S100000x10, .f32⟩
  | .hbm, ⟨77, _⟩ => ⟨S1x10, .f32⟩
  | .hbm, ⟨78, _⟩ => ⟨S100000x10, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S16x10, .f32⟩
  | .local _ .vmem, ⟨9, _⟩ => ⟨S10000x10, .f32⟩
  | .local _ .vmem, ⟨10, _⟩ => ⟨S10000x10, .f32⟩
  | .local _ .vmem, ⟨11, _⟩ => ⟨S10000x10, .f32⟩
  | .local _ .vmem, ⟨12, _⟩ => ⟨S10000x10, .f32⟩
  | .local _ .vmem, ⟨13, _⟩ => ⟨S1x10, .f32⟩
  | .local _ .vmem, ⟨14, _⟩ => ⟨S10000x10, .f32⟩
  | .local _ .vmem, ⟨15, _⟩ => ⟨S10000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x10_S16x10_0_0 : ∀ a, (![0, 0] : Fin 2 → Nat) a + S16x10.size a ≤ S16x10.size a
  h_S16x10 : 0 < S16x10.numel
  inb_S10000x10_S10000x10_0_0 : ∀ a, (![0, 0] : Fin 2 → Nat) a + S10000x10.size a ≤ S10000x10.size a
  h_S10000x10 : 0 < S10000x10.numel
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  shapeCasts_S10_S1x10 : S10.ShapeCasts S1x10
  shapeCasts_S10000x10_S10000x10 : S10000x10.ShapeCasts S10000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  reduces_S10000x10_S10000 : S10000x10.Reduces [1] S10000
  shapeCasts_S10000_S10000x1 : S10000.ShapeCasts S10000x1
  broadcasts_S10000x1_S10000x10 : S10000x1.Broadcasts S10000x10
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x10_S10000x10_1_0_0_1_n_n_wf : DotDims.WF S10000x16 S16x10 S10000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x10.size a ≤ S16x10.size a
  hwx1_2 : ∀ i : grid1.Coords, EltTy.bits .f32 = 32 ∨ (Rect.block (s := S16x10) S16x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x10.size a ≤ S100000x10.size a
  hwx1_3 : ∀ i : grid1.Coords, EltTy.bits .f32 = 32 ∨ (Rect.block (s := S100000x10) S10000x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x10.size a ≤ S100000x10.size a
  hwx2_0 : ∀ i : grid2.Coords, EltTy.bits .f32 = 32 ∨ (Rect.block (s := S100000x10) S10000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x10.size a ≤ S1x10.size a
  hwx2_1 : ∀ i : grid2.Coords, EltTy.bits .f32 = 32 ∨ (Rect.block (s := S1x10) S1x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x10.size a ≤ S100000x10.size a
  hwx2_2 : ∀ i : grid2.Coords, EltTy.bits .f32 = 32 ∨ (Rect.block (s := S100000x10) S10000x10.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x10_S10000x10_1_0_0_1_n_n : DotDims S10000x16 S16x10 S10000x10 where
  lhsContracting := [1]
  rhsContracting := [0]
  lhsNonContracting := [0]
  rhsNonContracting := [1]
  lhsBatch := []
  rhsBatch := []
  wf := dot_S10000x16_S16x10_S10000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x10 : Shape := ⟨2, ![16, 10]⟩
abbrev S10 : Shape := ⟨1, ![10]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x10 : Shape := ⟨2, ![100000, 10]⟩
abbrev S3300000x10 : Shape := ⟨2, ![3300000, 10]⟩
abbrev S1x10 : Shape := ⟨2, ![1, 10]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x10, .f32⟩
  | 5 => ⟨S10, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S100000, .i32⟩
  | 12 => ⟨S3300000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S_, .i32⟩
  | 25 => ⟨S3300000, .i32⟩
  | 26 => ⟨S3300000, .i1⟩
  | 27 => ⟨S_, .i32⟩
  | 28 => ⟨S3300000, .i32⟩
  | 29 => ⟨S3300000, .i32⟩
  | 30 => ⟨S3300000, .i32⟩
  | 31 => ⟨S3300000x1, .i32⟩
  | 32 => ⟨S3300000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000x16, .f32⟩
  | 52 => ⟨S3300000x1, .f32⟩
  | 53 => ⟨S3300000x16, .f32⟩
  | 54 => ⟨S3300000x16, .f32⟩
  | 55 => ⟨S_, .f32⟩
  | 56 => ⟨S100000x16, .f32⟩
  | 57 => ⟨S3300000x1, .i32⟩
  | 58 => ⟨S100000x16, .f32⟩
  | 59 => ⟨S1x16, .f32⟩
  | 60 => ⟨S100000x16, .f32⟩
  | 61 => ⟨S100000x16, .f32⟩
  | 62 => ⟨S_, .f32⟩
  | 63 => ⟨S100000x16, .f32⟩
  | 64 => ⟨S100000x16, .f32⟩
  | 65 => ⟨S100000x10, .f32⟩
  | 66 => ⟨S100000, .i32⟩
  | 67 => ⟨S3300000, .i32⟩
  | 68 => ⟨S3300000, .i32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .f32⟩
  | 78 => ⟨S100000, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S3300000, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000, .f32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x10, .f32⟩
  | 107 => ⟨S3300000x1, .f32⟩
  | 108 => ⟨S3300000x10, .f32⟩
  | 109 => ⟨S3300000x10, .f32⟩
  | 110 => ⟨S_, .f32⟩
  | 111 => ⟨S100000x10, .f32⟩
  | 112 => ⟨S3300000x1, .i32⟩
  | 113 => ⟨S100000x10, .f32⟩
  | 114 => ⟨S1x10, .f32⟩
  | 115 => ⟨S100000x10, .f32⟩
  | 116 => ⟨S100000x10, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x10, .f32⟩
  | 124 => ⟨S100000x10, .f32⟩
  | 125 => ⟨S100000x10, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x10, .f32⟩
  | 3 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_11 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_c_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_17 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_call1_cst : Ref sig .tc := ⟨.hbm, 117, rfl⟩
abbrev main_call1_v0 : Ref sig .tc := ⟨.hbm, 118, rfl⟩
abbrev main_call1_cst_0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_call1_v4 : Ref sig .tc := ⟨.hbm, 123, rfl⟩
abbrev main_call1_v5 : Ref sig .tc := ⟨.hbm, 124, rfl⟩
abbrev main_call1_v6 : Ref sig .tc := ⟨.hbm, 125, rfl⟩
abbrev main_call1_cst_1 : Ref sig .tc := ⟨.hbm, 126, rfl⟩
abbrev main_call1_v7 : Ref sig .tc := ⟨.hbm, 127, rfl⟩
abbrev main_call1_v8 : Ref sig .tc := ⟨.hbm, 128, rfl⟩
abbrev main_call1_v9 : Ref sig .tc := ⟨.hbm, 129, rfl⟩
abbrev main_call1_v10 : Ref sig .tc := ⟨.hbm, 130, rfl⟩
abbrev main_v89 : Ref sig .tc := ⟨.hbm, 131, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x10_0_1 : S3300000x1.BroadcastsInDim S3300000x10 (![0, 1] : Fin 2 → Fin S3300000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x10_S100000x10_1_0_0_1_n_n_wf : DotDims.WF S100000x16 S16x10 S100000x10 [1] [0] [0] [1] [] []
  gather_S100000x10_S3300000x1_S3300000x10_1_0_n_n_0_1_110_wf : GatherDims.WF S100000x10 S3300000x1 S3300000x10 [1] [0] [] [0] [] 1 ![1, 10]
  scatter_S100000x10_S3300000x1_S3300000x10_1_0_0_1_wf : ScatterDims.WF S100000x10 S3300000x1 S3300000x10 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf
def gather_S100000x10_S3300000x1_S3300000x10_1_0_n_n_0_1_110 : GatherDims S100000x10 S3300000x1 S3300000x10 where
  offsetDims := [1]
  collapsedSliceDims := [0]
  operandBatchingDims := []
  startIndicesBatchingDims := []
  startIndexMap := [0]
  indexVectorDim := 1
  sliceSizes := ![1, 10]
  wf := gather_S100000x10_S3300000x1_S3300000x10_1_0_n_n_0_1_110_wf
def scatter_S100000x10_S3300000x1_S3300000x10_1_0_0_1 : ScatterDims S100000x10 S3300000x1 S3300000x10 where
  updateWindowDims := [1]
  insertedWindowDims := [0]
  scatterDimsToOperandDims := [0]
  indexVectorDim := 1
  wf := scatter_S100000x10_S3300000x1_S3300000x10_1_0_0_1_wf

class Facts : Prop extends Facts₀ where

variable [Facts]
-- ==== Proof.Spec.lean ====
/-
  The three dense stages of a two-layer graph convolution, each as ONE function of whole arrays, read index by index
  over the extended reals.

  * `matProd x w`: the matrix product, entry (p, q) the sum over κ of x (p, κ) · w (κ, q).
  * `reluBiasProd a b w`: a one-row bias b is added to every row of a, the negative entries are cut to zero, and the
    result is multiplied by w.
  * `logSoftmaxBias z b`: a one-row bias b is added to every row of z; each row is shifted by its own maximum and the
    logarithm of the sum of the exponentials of the shifted row is subtracted: the row's log-softmax.

  Every stage works row by row: row p of the result depends on row p of the first operand only. That is why a
  computation that walks the rows in blocks and one that takes the array whole agree.
-/
import Idealize.ShloMosaic.PureOps.Ideal.Laws
import Idealize.ShloMosaic.Lib.ValueIdx

noncomputable section

open scoped BigOperators

namespace Cert.Gcn

open Idealize.ShloMosaic Idealize.ShloMosaic.ValueIdx

/-- The matrix product: entry (p, q) is the sum over κ of x (p, κ) · w (κ, q). -/
def matProd {M K N : Nat} (x : FVec Ideal ⟨2, ![M, K]⟩ .f32) (w : FVec Ideal ⟨2, ![K, N]⟩ .f32) :
    FVec Ideal ⟨2, ![M, N]⟩ .f32 :=
  fun i => ∑ κ : Fin K, x (ix2 (i 0 : Fin M) κ) * w (ix2 κ (i 1 : Fin N))

theorem matProd_apply {M K N : Nat} (x : FVec Ideal ⟨2, ![M, K]⟩ .f32) (w : FVec Ideal ⟨2, ![K, N]⟩ .f32)
    (p : Fin M) (q : Fin N) : matProd x w (ix2 p q) = ∑ κ : Fin K, x (ix2 p κ) * w (ix2 κ q) := rfl

/-- Bias, cut at zero, product: entry (p, q) is the sum over κ of max (a (p, κ) + b (0, κ)) 0 · w (κ, q). -/
def reluBiasProd {M K N : Nat} (a : FVec Ideal ⟨2, ![M, K]⟩ .f32) (b : FVec Ideal ⟨2, ![1, K]⟩ .f32)
    (w : FVec Ideal ⟨2, ![K, N]⟩ .f32) : FVec Ideal ⟨2, ![M, N]⟩ .f32 :=
  fun i => ∑ κ : Fin K, max (a (ix2 (i 0 : Fin M) κ) + b (ix2 (0 : Fin 1) κ)) 0 * w (ix2 κ (i 1 : Fin N))

theorem reluBiasProd_apply {M K N : Nat} (a : FVec Ideal ⟨2, ![M, K]⟩ .f32) (b : FVec Ideal ⟨2, ![1, K]⟩ .f32)
    (w : FVec Ideal ⟨2, ![K, N]⟩ .f32) (p : Fin M) (q : Fin N) :
    reluBiasProd a b w (ix2 p q) = ∑ κ : Fin K, max (a (ix2 p κ) + b (ix2 (0 : Fin 1) κ)) 0 * w (ix2 κ q) := rfl

/-- Row p of z with the one-row bias added, as a function of the column. -/
def biased {M C : Nat} (z : FVec Ideal ⟨2, ![M, C]⟩ .f32) (b : FVec Ideal ⟨2, ![1, C]⟩ .f32) (p : Fin M) (κ : Fin C) : EReal :=
  z (ix2 p κ) + b (ix2 (0 : Fin 1) κ)

/-- The maximum of the biased row p, folded from minus infinity (the word 0xFF800000, kept as a word). -/
def rowMax {M C : Nat} (z : FVec Ideal ⟨2, ![M, C]⟩ .f32) (b : FVec Ideal ⟨2, ![1, C]⟩ .f32) (p : Fin M) : EReal :=
  (Finset.univ : Finset (Fin C)).fold max (Ideal.ofBits .f32 0xFF800000#32) (biased z b p)

/-- The bias log-softmax: entry (p, q) is (y q − μ) − log (∑ κ, exp (y κ − μ)), y the biased row p and μ its maximum. -/
def logSoftmaxBias {M C : Nat} (z : FVec Ideal ⟨2, ![M, C]⟩ .f32) (b : FVec Ideal ⟨2, ![1, C]⟩ .f32) :
    FVec Ideal ⟨2, ![M, C]⟩ .f32 :=
  fun i => (biased z b (i 0 : Fin M) (i 1 : Fin C) - rowMax z b (i 0 : Fin M))
    - Ideal.log (∑ κ : Fin C, Ideal.exp (biased z b (i 0 : Fin M) κ - rowMax z b (i 0 : Fin M)))

theorem logSoftmaxBias_apply {M C : Nat} (z : FVec Ideal ⟨2, ![M, C]⟩ .f32) (b : FVec Ideal ⟨2, ![1, C]⟩ .f32)
    (p : Fin M) (q : Fin C) :
    logSoftmaxBias z b (ix2 p q)
      = (biased z b p q - rowMax z b p) - Ideal.log (∑ κ : Fin C, Ideal.exp (biased z b p κ - rowMax z b p)) := rfl

end Cert.Gcn

end
-- ==== Proof.HostChain.lean ====
/-
  The graph side of the convolution, shared by both programs: from the edge list, the message-passing operator
  h ↦ Â h with Â = D^(-1/2) (A + I) D^(-1/2).

  The edge list holds a row of source nodes and a row of destination nodes. A self-loop is appended for every node; a
  node's degree is the number of edges that end in it (at least one, the self-loop, and the value is floored at one
  anyway); an edge s → d carries the weight deg(s)^(-1/2) · deg(d)^(-1/2). Aggregation gathers the source rows, scales
  each by its edge's weight, and adds every scaled row into its destination's row. A negative node number counts from
  the end, as array indexing on the host does.

  Both programs spell these steps with the same host operations. They are named here as functions so that neither
  proof ever has to look inside a gather or a scatter: all that is used of them is that equal operands give equal
  results.
-/
import proofs.«157897_j51445118271702_1_alg».proof.Proof.Gen.KernelIdeal
import Idealize.ShloMosaic.PureOps.Ideal

noncomputable section

namespace Cert.Gcn

open Idealize.ShloMosaic Cert.KernelIdeal Cert.KernelIdeal.Facts₀ Cert.KernelIdeal.Facts

/-- An edge-list row (0: sources, 1: destinations) followed by the self-loops 0, 1, …, 99999. -/
def endpoints (row : Fin 2 → Nat) (hrow : S2x3200000.Slices row S1x3200000)
    (ei : (⟨S2x3200000, .i32⟩ : BufTy).Contents (Elt Ideal)) : (⟨S3300000, .i32⟩ : BufTy).Contents (Elt Ideal) :=
  concatenate S3300000 0 [⟨S3200000, shapeCast _ (extractStridedSlice S1x3200000 row ei hrow) shapeCasts_S1x3200000_S3200000⟩,
    ⟨S100000, iotaInDim S100000 32 0⟩] concatenates_S3200000_S100000_S3300000_d0

/-- The source end of every edge and self-loop. -/
def srcs (ei : (⟨S2x3200000, .i32⟩ : BufTy).Contents (Elt Ideal)) : (⟨S3300000, .i32⟩ : BufTy).Contents (Elt Ideal) :=
  endpoints ![0, 0] slices_S2x3200000_S1x3200000_0_0 ei

/-- The destination end of every edge and self-loop. -/
def dsts (ei : (⟨S2x3200000, .i32⟩ : BufTy).Contents (Elt Ideal)) : (⟨S3300000, .i32⟩ : BufTy).Contents (Elt Ideal) :=
  endpoints ![1, 0] slices_S2x3200000_S1x3200000_1_0 ei

/-- A negative node number counts from the end: v < 0 reads as v + 100000. -/
def wrap (v : (⟨S3300000, .i32⟩ : BufTy).Contents (Elt Ideal)) : (⟨S3300000, .i32⟩ : BufTy).Contents (Elt Ideal) :=
  select (cmpi .slt v (broadcastInDim S3300000 ![] bcast_S_S3300000 (constantI S_ 32 0#32)))
    (addi v (broadcastInDim S3300000 ![] bcast_S_S3300000 (constantI S_ 32 100000#32))) v

/-- A list of node numbers as a one-column index array. -/
def col (v : (⟨S3300000, .i32⟩ : BufTy).Contents (Elt Ideal)) : (⟨S3300000x1, .i32⟩ : BufTy).Contents (Elt Ideal) :=
  broadcastInDim S3300000x1 ![0] bcast_S3300000_S3300000x1_0 v

/-- deg^(-1/2) per node, the degree counted with the self-loop and floored at one. -/
def invSqrtDeg (ei : (⟨S2x3200000, .i32⟩ : BufTy).Contents (Elt Ideal)) : (⟨S100000, .f32⟩ : BufTy).Contents (Elt Ideal) :=
  Host.rsqrt (F := Ideal) (maximumf (F := Ideal)
    (Host.scatterAdd (F := Ideal) scatter_S100000_S3300000x1_S3300000_n_0_0_1
      (broadcastInDim S100000 ![] bcast_S_S100000 (constant (F := Ideal) S_ .f32 0x00000000#32)) (col (dsts ei))
      (broadcastInDim S3300000 ![] bcast_S_S3300000 (constant (F := Ideal) S_ .f32 0x3F800000#32)))
    (broadcastInDim S100000 ![] bcast_S_S100000 (constant (F := Ideal) S_ .f32 0x3F800000#32)))

/-- The weight of every edge and self-loop: deg(s)^(-1/2) · deg(d)^(-1/2). -/
def edgeWeight (ei : (⟨S2x3200000, .i32⟩ : BufTy).Contents (Elt Ideal)) : (⟨S3300000, .f32⟩ : BufTy).Contents (Elt Ideal) :=
  mulf (F := Ideal) (φ := .f32) (Host.gather gather_S100000_S3300000x1_S3300000_n_0_n_n_0_1_1 (invSqrtDeg ei) (col (wrap (srcs ei))))
    (Host.gather gather_S100000_S3300000x1_S3300000_n_0_n_n_0_1_1 (invSqrtDeg ei) (col (wrap (dsts ei))))

/-- Message passing on 16 features, from the two endpoint lists and the edge weights: every destination's row is the sum
    of its sources' rows, each scaled by its edge's weight. -/
def aggCore16 (h : (⟨S100000x16, .f32⟩ : BufTy).Contents (Elt Ideal)) (s d : (⟨S3300000, .i32⟩ : BufTy).Contents (Elt Ideal))
    (wt : (⟨S3300000, .f32⟩ : BufTy).Contents (Elt Ideal)) : (⟨S100000x16, .f32⟩ : BufTy).Contents (Elt Ideal) :=
  Host.scatterAdd (F := Ideal) scatter_S100000x16_S3300000x1_S3300000x16_1_0_0_1
    (broadcastInDim S100000x16 ![] bcast_S_S100000x16 (constant (F := Ideal) S_ .f32 0x00000000#32)) (col d)
    (mulf (F := Ideal) (φ := .f32) (Host.gather gather_S100000x16_S3300000x1_S3300000x16_1_0_n_n_0_1_116 h (col (wrap s)))
      (broadcastInDim S3300000x16 ![0, 1] bcast_S3300000x1_S3300000x16_0_1
        (broadcastInDim S3300000x1 ![0] bcast_S3300000_S3300000x1_0 wt)))

/-- Message passing on 10 features, from the two endpoint lists and the edge weights. -/
def aggCore10 (h : (⟨S100000x10, .f32⟩ : BufTy).Contents (Elt Ideal)) (s d : (⟨S3300000, .i32⟩ : BufTy).Contents (Elt Ideal))
    (wt : (⟨S3300000, .f32⟩ : BufTy).Contents (Elt Ideal)) : (⟨S100000x10, .f32⟩ : BufTy).Contents (Elt Ideal) :=
  Host.scatterAdd (F := Ideal) scatter_S100000x10_S3300000x1_S3300000x10_1_0_0_1
    (broadcastInDim S100000x10 ![] bcast_S_S100000x10 (constant (F := Ideal) S_ .f32 0x00000000#32)) (col d)
    (mulf (F := Ideal) (φ := .f32) (Host.gather gather_S100000x10_S3300000x1_S3300000x10_1_0_n_n_0_1_110 h (col (wrap s)))
      (broadcastInDim S3300000x10 ![0, 1] bcast_S3300000x1_S3300000x10_0_1
        (broadcastInDim S3300000x1 ![0] bcast_S3300000_S3300000x1_0 wt)))

/-- Message passing on 16 features over the graph of an edge list. -/
def agg16 (h : (⟨S100000x16, .f32⟩ : BufTy).Contents (Elt Ideal)) (ei : (⟨S2x3200000, .i32⟩ : BufTy).Contents (Elt Ideal)) :
    (⟨S100000x16, .f32⟩ : BufTy).Contents (Elt Ideal) :=
  aggCore16 h (srcs ei) (dsts ei) (edgeWeight ei)

/-- Message passing on 10 features over the graph of an edge list. -/
def agg10 (h : (⟨S100000x10, .f32⟩ : BufTy).Contents (Elt Ideal)) (ei : (⟨S2x3200000, .i32⟩ : BufTy).Contents (Elt Ideal)) :
    (⟨S100000x10, .f32⟩ : BufTy).Contents (Elt Ideal) :=
  aggCore10 h (srcs ei) (dsts ei) (edgeWeight ei)

/-- A bias vector as a one-row matrix. -/
def biasRow16 (b : (⟨S16, .f32⟩ : BufTy).Contents (Elt Ideal)) : (⟨S1x16, .f32⟩ : BufTy).Contents (Elt Ideal) :=
  shapeCast _ b shapeCasts_S16_S1x16

/-- A bias vector as a one-row matrix. -/
def biasRow10 (b : (⟨S10, .f32⟩ : BufTy).Contents (Elt Ideal)) : (⟨S1x10, .f32⟩ : BufTy).Contents (Elt Ideal) :=
  shapeCast _ b shapeCasts_S10_S1x10

end Cert.Gcn

end
-- ==== Proof.Model.lean ====
/-
  The whole network as one function of the six arguments: features x, edge list ei, first layer (w1, b1), second layer
  (w2, b2). With Â the message-passing operator of the graph,
      out = logSoftmax (Â (relu (Â (x w1) + b1) w2) + b2),
  the bias of each layer added inside the stage that follows the aggregation.
-/
import proofs.«157897_j51445118271702_1_alg».proof.Proof.Spec
import proofs.«157897_j51445118271702_1_alg».proof.Proof.HostChain

noncomputable section

namespace Cert.Gcn

open Idealize.ShloMosaic Cert.KernelIdeal

/-- The two-layer graph convolution with a log-softmax head. -/
def gcn (x : (⟨S100000x128, .f32⟩ : BufTy).Contents (Elt Ideal)) (ei : (⟨S2x3200000, .i32⟩ : BufTy).Contents (Elt Ideal))
    (w1 : (⟨S128x16, .f32⟩ : BufTy).Contents (Elt Ideal)) (b1 : (⟨S16, .f32⟩ : BufTy).Contents (Elt Ideal))
    (w2 : (⟨S16x10, .f32⟩ : BufTy).Contents (Elt Ideal)) (b2 : (⟨S10, .f32⟩ : BufTy).Contents (Elt Ideal)) :
    (⟨S100000x10, .f32⟩ : BufTy).Contents (Elt Ideal) :=
  logSoftmaxBias (agg10 (reluBiasProd (agg16 (matProd x w1) ei) (biasRow16 b1) w2) ei) (biasRow10 b2)

end Cert.Gcn

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Region0.lean ====
import proofs.«157897_j51445118271702_1_alg».proof.Proof.Gen.KernelIdeal.Frame
import proofs.«157897_j51445118271702_1_alg».proof.Proof.Spec
import proofs.«157897_j51445118271702_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The zero offsets of a whole-buffer access, spelt as a constant function. -/
theorem offsets_zero : (![0, 0] : Fin 2 → Nat) = fun _ => 0 := funext fun a => by fin_cases a <;> rfl

/-- The body's dimension numbers contract the left operand's columns with the right operand's rows, with no batch axes. -/
theorem dims_plain : PlainDot.IsPlain dot_S10000x128_S128x16_S10000x16_1_0_0_1_n_n := ⟨rfl, rfl, rfl, rfl, rfl, rfl⟩

/-- What the body stores, at row p and column q of a block: the sum over κ of x0 (p, κ) · x1 (κ, q). The narrowing of
    both operands is the identity over the extended reals, and the accumulator is zero. -/
theorem block_product (x0 : Vec Ideal S10000x128 .f32) (x1 : Vec Ideal S128x16 .f32) (p : Fin 10000) (q : Fin 16) :
    k0_pay1 x0 x1 (ix2 p q) = ∑ κ : Fin 128, x0 (ix2 p κ) * x1 (ix2 κ q) := by
  unfold k0_pay1
  exact PlainDot.matmul_zero_plain dot_S10000x128_S128x16_S10000x16_1_0_0_1_n_n dims_plain none _ _ p q

/-- The printed index maps over the grid: at point t the feature window and the result window are at row block t,
    column block 0; the weight window stays at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the feature block at point t is row 10000 t + p of the feature array. -/
theorem feature_block (c : Dev nD) (t : Fin cfg0.N) (p : Fin 10000) (κ : Fin 128) (r : Fin 100000)
    (hr : r.val = t.val * 10000 + p.val) :
    (iblk0 V c 0 t : Vec Ideal S10000x128 .f32) (ix2 p κ) = (V c main_arg0 : S100000x128.Idx → EReal) (ix2 r κ) := by
  obtain ⟨e0, e1, -, -, -, -⟩ := block_indices t
  show V c main_arg0 (((cfg0.win 0).blk t).view.emb (ix2 p κ)) = V c main_arg0 (ix2 r κ)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 128 + 1 * κ.val = κ.val; omega

/-- The weight block at every point is the weight matrix. -/
theorem weight_block (c : Dev nD) (t : Fin cfg0.N) (κ : Fin 128) (q : Fin 16) :
    (iblk0 V c 1 t : Vec Ideal S128x16 .f32) (ix2 κ q) = (V c main_arg2 : S128x16.Idx → EReal) (ix2 κ q) := by
  obtain ⟨-, -, e0, e1, -, -⟩ := block_indices t
  show V c main_arg2 (((cfg0.win 1).blk t).view.emb (ix2 κ q)) = V c main_arg2 (ix2 κ q)
  refine congrArg (V c main_arg2) (funext fun a => Fin.ext ?_)
  match a with
  | ⟨0, _⟩ => show win0_1.index t (0 : Fin 2) * 128 + 1 * κ.val = κ.val; omega
  | ⟨1, _⟩ => show win0_1.index t (1 : Fin 2) * 16 + 1 * q.val = q.val; omega

/-- What point t writes back is block t of the product of the feature array and the weight matrix: row p of the block
    is row 10000 t + p of the product, which reads row 10000 t + p of the features only. -/
theorem written_back (c : Dev nD) (t : Fin cfg0.N) :
    (dat0 (F := Ideal) V c).flushed 2 t
      = ((cfg0.win 2).blk t).view.read (Elt Ideal) (matProd (V c main_arg0) (V c main_arg2)) := by
  show (cfg0.win 2).cut (grid0.coords t) ((dat0 V c).after 2 t) = _
  rw [after0_2]
  unfold out0_2
  rw [View.canon_unit_zero offsets_zero]
  simp only [View.ld_unit_zero (S := S10000x128) offsets_zero, View.ld_unit_zero (S := S128x16) offsets_zero]
  refine funext fun (j : S10000x16.Idx) => ?_
  obtain ⟨p, q, rfl⟩ : ∃ (p : Fin 10000) (q : Fin 16), j = ix2 p q := ⟨j 0, j 1, eq_ix2 j⟩
  obtain ⟨-, -, -, -, e0, e1⟩ := block_indices t
  have ht : t.val < 10 := lt_of_lt_of_eq t.isLt N_0
  have hrow : (((cfg0.win 2).blk t).view.emb (ix2 p q) : S100000x16.Idx)
      = ix2 (⟨t.val * 10000 + p.val, by omega⟩ : Fin 100000) q := by
    refine funext fun a => Fin.ext ?_
    match a with
    | ⟨0, _⟩ => show win0_2.index t (0 : Fin 2) * 10000 + 1 * p.val = t.val * 10000 + p.val; omega
    | ⟨1, _⟩ => show win0_2.index t (1 : Fin 2) * 16 + 1 * q.val = q.val; omega
  show k0_pay1 (iblk0 V c 0 t) (iblk0 V c 1 t) (ix2 p q)
    = matProd (V c main_arg0) (V c main_arg2) (((cfg0.win 2).blk t).view.emb (ix2 p q))
  refine (block_product (iblk0 V c 0 t) (iblk0 V c 1 t) p q).trans ?_
  refine Eq.trans ?_ (congrArg (matProd (V c main_arg0) (V c main_arg2)) hrow).symm
  refine Eq.trans ?_ (matProd_apply (V c main_arg0) (V c main_arg2) _ q).symm
  exact Finset.sum_congr rfl fun κ _ =>
    congrArg₂ (· * ·) (feature_block V c t p κ _ rfl) (weight_block V c t κ q)

/-- An index of the result array is in point t's block iff each coordinate is in the block's range on its axis. -/
theorem mem_block (t : Fin cfg0.N) (i : S100000x16.Idx) :
    i ∈ ((cfg0.win 2).blk t).view.set
      ↔ ∀ a : Fin 2, win0_2.index t a * S10000x16.size a ≤ (i a).val
          ∧ (i a).val < win0_2.index t a * S10000x16.size a + S10000x16.size a := by
  show i ∈ ((View.whole main_v29).slice (win0_2.rect t)).set ↔ _
  rw [View.set_slice_whole, Rect.mem_set_unit]
  exact Iff.rfl

/-- Every row r of the result array is written back by the point r / 10000: the ten row blocks tile the array. -/
theorem covered (i : S100000x16.Idx) :
    ∃ t : Fin cfg0.N, (cfg0.win 2).flush t = true ∧ i ∈ ((cfg0.win 2).blk t).view.set := by
  have h0 : (i 0).val < 100000 := (i 0).isLt
  have h1 : (i 1).val < 16 := (i 1).isLt
  have hN : cfg0.N = 10 := N_0
  refine ⟨⟨(i 0).val / 10000, by rw [hN]; omega⟩, flush0_2 _, ?_⟩
  rw [mem_block]
  obtain ⟨-, -, -, -, e0, e1⟩ := block_indices ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 16 ≤ (i 1).val ∧ (i 1).val < win0_2.index _ (1 : Fin 2) * 16 + 16
    rw [e1]; omega

/-- After the first kernel call the 100000×16 result array is the product of the feature array and the first weight
    matrix as the call finds them. -/
theorem array (c : Dev nD) :
    (dat0 (F := Ideal) V c).arrAt 2 cfg0.N = matProd (V c main_arg0) (V c main_arg2) := by
  exact (dat0 (F := Ideal) V c).arrAt_eq_of_cover 2 (matProd (V c main_arg0) (V c main_arg2))
    (fun t _ => written_back V c t) covered

end Cert.Gcn.Region0

end
-- ==== Proof.Region1.lean ====
import proofs.«157897_j51445118271702_1_alg».proof.Proof.Gen.KernelIdeal.Frame
import proofs.«157897_j51445118271702_1_alg».proof.Proof.Spec
import proofs.«157897_j51445118271702_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

/-- The zero offsets of a whole-buffer access, as a constant function. -/
theorem hz : (![0, 0] : Fin 2 → Nat) = fun _ => 0 := funext fun a => by fin_cases a <;> rfl

/-- The product's dimension numbers contract the left operand's columns with the right operand's rows. -/
theorem isPlain : PlainDot.IsPlain dot_S10000x16_S16x10_S10000x10_1_0_0_1_n_n := ⟨rfl, rfl, rfl, rfl, rfl, rfl⟩

/-- The body's arithmetic at entry (p, q) of a block: the sum over κ of max (x (p, κ) + b (0, κ)) 0 · w (κ, q). -/
theorem payload_apply (x0 : Vec Ideal S10000x16 .f32) (x1 : Vec Ideal S1x16 .f32) (x2 : Vec Ideal S16x10 .f32)
    (p : Fin 10000) (q : Fin 10) :
    k1_pay1 x0 x1 x2 (ix2 p q) = ∑ κ : Fin 16, max (x0 (ix2 p κ) + x1 (ix2 (0 : Fin 1) κ)) 0 * x2 (ix2 κ q) := by
  unfold k1_pay1
  refine (PlainDot.matmul_zero_plain _ isPlain none _ _ p q).trans ?_
  refine Finset.sum_congr rfl fun κ _ => ?_
  have hb : broadcastTo S10000x16 x1 broadcasts_S1x16_S10000x16 (ix2 p κ) = x1 (ix2 (0 : Fin 1) κ) :=
    broadcastTo_1b_ab_apply x1 broadcasts_S1x16_S10000x16 p κ
  simp only [truncf_apply, maximumf_apply, addf_apply, broadcast_apply, shapeCast_self, Ideal.ofBits_def]
  rw [hb, Ideal.ofBits_zero_f32]

/-- A block's entry (p, q) is the whole-array function's entry (P, q) when the block's row p is row P of the first array
    and the two small operands are read whole. -/
theorem block_entry (A : FVec Ideal S100000x16 .f32) (B : FVec Ideal S1x16 .f32) (Wt : FVec Ideal S16x10 .f32)
    (x0 : Vec Ideal S10000x16 .f32) (x1 : Vec Ideal S1x16 .f32) (x2 : Vec Ideal S16x10 .f32)
    (P : Fin 100000) (p : Fin 10000) (q : Fin 10)
    (h0 : ∀ κ : Fin 16, x0 (ix2 p κ) = A (ix2 P κ))
    (h1 : ∀ κ : Fin 16, x1 (ix2 (0 : Fin 1) κ) = B (ix2 (0 : Fin 1) κ))
    (h2 : ∀ κ : Fin 16, x2 (ix2 κ q) = Wt (ix2 κ q)) :
    k1_pay1 x0 x1 x2 (ix2 p q) = reluBiasProd A B Wt (ix2 P q) := by
  rw [payload_apply, reluBiasProd_apply]
  refine Finset.sum_congr rfl fun κ _ => ?_
  rw [h0, h1, h2]

/-- The printed index maps over the grid: the row-blocked windows sit at block (t, 0), the small operands at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Row p of the first window's block at point t is row t · 10000 + p of the first array. -/
theorem rows_block (c : Dev nD) (t : Fin cfg1.N) (p : Fin 10000) (κ : Fin 16) (P : Fin 100000)
    (hP : P.val = t.val * 10000 + p.val) :
    (iblk1 V c 0 t : Vec Ideal S10000x16 .f32) (ix2 p κ) = (V c main_v42 : S100000x16.Idx → Elt Ideal .f32) (ix2 P κ) := by
  obtain ⟨e00, e01, -⟩ := idx_facts t
  show V c main_v42 (((cfg1.win 0).blk t).view.emb (ix2 p κ)) = V c main_v42 (ix2 P κ)
  refine congrArg _ (funext fun a => Fin.ext ?_)
  match a with
  | ⟨0, _⟩ => show win1_0.index t (0 : Fin 2) * 10000 + 1 * p.val = P.val; omega
  | ⟨1, _⟩ => show win1_0.index t (1 : Fin 2) * 16 + 1 * κ.val = κ.val; omega

/-- The bias window's block at any point is the one-row bias array. -/
theorem bias_block (c : Dev nD) (t : Fin cfg1.N) (κ : Fin 16) :
    (iblk1 V c 1 t : Vec Ideal S1x16 .f32) (ix2 (0 : Fin 1) κ) = (V c main_v43 : S1x16.Idx → Elt Ideal .f32) (ix2 (0 : Fin 1) κ) := by
  obtain ⟨-, -, e10, e11, -⟩ := idx_facts t
  show V c main_v43 (((cfg1.win 1).blk t).view.emb (ix2 (0 : Fin 1) κ)) = V c main_v43 (ix2 (0 : Fin 1) κ)
  refine congrArg _ (funext fun a => Fin.ext ?_)
  match a with
  | ⟨0, _⟩ => show win1_1.index t (0 : Fin 2) * 1 + 1 * 0 = 0; omega
  | ⟨1, _⟩ => show win1_1.index t (1 : Fin 2) * 16 + 1 * κ.val = κ.val; omega

/-- The weight window's block at any point is the weight array. -/
theorem weight_block (c : Dev nD) (t : Fin cfg1.N) (κ : Fin 16) (q : Fin 10) :
    (iblk1 V c 2 t : Vec Ideal S16x10 .f32) (ix2 κ q) = (V c main_arg4 : S16x10.Idx → Elt Ideal .f32) (ix2 κ q) := by
  obtain ⟨-, -, -, -, e20, e21, -⟩ := idx_facts t
  show V c main_arg4 (((cfg1.win 2).blk t).view.emb (ix2 κ q)) = V c main_arg4 (ix2 κ q)
  refine congrArg _ (funext fun a => Fin.ext ?_)
  match a with
  | ⟨0, _⟩ => show win1_2.index t (0 : Fin 2) * 16 + 1 * κ.val = κ.val; omega
  | ⟨1, _⟩ => show win1_2.index t (1 : Fin 2) * 10 + 1 * q.val = q.val; omega

/-- What point t writes back is block t of the bias, cut at zero, product of the arrays the call finds. -/
theorem flushed_eq (c : Dev nD) (t : Fin cfg1.N) :
    (dat1 (F := Ideal) V c).flushed 3 t
      = ((cfg1.win 3).blk t).view.read (Elt Ideal) (reluBiasProd (V c main_v42) (V c main_v43) (V c main_arg4)) := by
  show (cfg1.win 3).cut (grid1.coords t) ((dat1 V c).after 3 t) = _
  rw [after1_3]
  unfold out1_3
  rw [View.canon_unit_zero hz]
  simp only [View.ld_unit_zero (S := S10000x16) hz, View.ld_unit_zero (S := S1x16) hz, View.ld_unit_zero (S := S16x10) hz]
  funext j
  obtain ⟨-, -, -, -, -, -, e30, e31⟩ := idx_facts t
  have hj0 : (j 0).val < 10000 := (j 0).isLt
  have hj1 : (j 1).val < 10 := (j 1).isLt
  have ht : t.val < 10 := t.isLt
  have hl : (win1 3).xinj (grid1.coords t) j = ix2 (⟨(j 0).val, hj0⟩ : Fin 10000) (⟨(j 1).val, hj1⟩ : Fin 10) :=
    funext fun a => by match a with | ⟨0, _⟩ => rfl | ⟨1, _⟩ => rfl
  have hr : ((cfg1.win 3).blk t).view.emb j
      = ix2 (⟨t.val * 10000 + (j 0).val, by omega⟩ : Fin 100000) (⟨(j 1).val, hj1⟩ : Fin 10) := by
    funext a; apply Fin.ext
    match a with
    | ⟨0, _⟩ => show win1_3.index t (0 : Fin 2) * 10000 + 1 * (j 0).val = t.val * 10000 + (j 0).val; omega
    | ⟨1, _⟩ => show win1_3.index t (1 : Fin 2) * 10 + 1 * (j 1).val = (j 1).val; omega
  show k1_pay1 (iblk1 V c 0 t) (iblk1 V c 1 t) (iblk1 V c 2 t) ((win1 3).xinj (grid1.coords t) j)
    = reluBiasProd (V c main_v42) (V c main_v43) (V c main_arg4) (((cfg1.win 3).blk t).view.emb j)
  rw [hl, hr]
  exact block_entry (V c main_v42) (V c main_v43) (V c main_arg4) (iblk1 V c 0 t) (iblk1 V c 1 t) (iblk1 V c 2 t) _ _ _
    (fun κ => rows_block V c t _ κ _ rfl) (fun κ => bias_block V c t κ) (fun κ => weight_block V c t κ _)

/-- An index of the result array is in point t's block iff each coordinate is in the block's range on its axis. -/
theorem mem_blk (t : Fin cfg1.N) (i : S100000x10.Idx) :
    i ∈ ((cfg1.win 3).blk t).view.set ↔ ∀ a : Fin 2, win1_3.index t a * S10000x10.size a ≤ (i a).val
      ∧ (i a).val < win1_3.index t a * S10000x10.size a + S10000x10.size a := by
  show i ∈ ((View.whole main_v44).slice (win1_3.rect t)).set ↔ _
  rw [View.set_slice_whole, Rect.mem_set_unit]
  exact Iff.rfl

/-- Every row r of the result lies in the block of the point r / 10000, which writes its block back: the blocks tile the array. -/
theorem cover (i : S100000x10.Idx) :
    ∃ t : Fin cfg1.N, (cfg1.win 3).flush t = true ∧ i ∈ ((cfg1.win 3).blk t).view.set := by
  have hi0 : (i 0).val < 100000 := (i 0).isLt
  have hi1 : (i 1).val < 10 := (i 1).isLt
  have hlt : (i 0).val / 10000 < cfg1.N := by show (i 0).val / 10000 < 10; omega
  refine ⟨⟨(i 0).val / 10000, hlt⟩, flush1_3 _, ?_⟩
  rw [mem_blk]
  obtain ⟨-, -, -, -, -, -, e30, e31⟩ := idx_facts ⟨(i 0).val / 10000, hlt⟩
  have e30' : win1_3.index ⟨(i 0).val / 10000, hlt⟩ (0 : Fin 2) = (i 0).val / 10000 := e30
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    omega
  | ⟨1, _⟩ =>
    show win1_3.index ⟨(i 0).val / 10000, hlt⟩ (1 : Fin 2) * 10 ≤ (i 1).val
      ∧ (i 1).val < win1_3.index ⟨(i 0).val / 10000, hlt⟩ (1 : Fin 2) * 10 + 10
    omega

/-- After the second kernel call the 100000×10 result array is relu (a + b) · w of the three arrays the call finds. -/
theorem array (c : Dev nD) :
    (dat1 (F := Ideal) V c).arrAt 3 cfg1.N = reluBiasProd (V c main_v42) (V c main_v43) (V c main_arg4) := by
  exact (dat1 (F := Ideal) V c).arrAt_eq_of_cover 3 (reluBiasProd (V c main_v42) (V c main_v43) (V c main_arg4))
    (fun t _ => flushed_eq V c t) cover

end Cert.Gcn.Region1

end
-- ==== Proof.Region2.lean ====
import proofs.«157897_j51445118271702_1_alg».proof.Proof.Gen.KernelIdeal.Frame
import proofs.«157897_j51445118271702_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Gcn.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

/-- The zero offsets of a whole-buffer access, spelt as a constant function. -/
theorem offsets_zero : (![0, 0] : Fin 2 → Nat) = fun _ => 0 := funext fun a => by fin_cases a <;> rfl

/-! ## Two layout steps read at an index: a vector stood up as a column, a column repeated along the rows -/

section Layout
variable {α : Type}

/-- A vector of length a viewed as an a × 1 matrix reads, at (p, u), its entry p: both have row-major position p. -/
theorem column_of_vector_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- An a × 1 column repeated along the rows to a × b reads, at (p, q), the column's entry p. -/
theorem column_broadcast_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The two reductions along a row of a 10000 × 10 block -/

/-- Over row p of the block, the index with column κ put back on the reduced axis is (p, κ). -/
theorem lift_row (h : S10000x10.Reduces [1] S10000) (p : Fin 10000) (κ : Fin 10) : h.lift (ix1 p) κ = ix2 p κ := by
  funext a; apply Fin.ext
  match a with
  | ⟨0, _⟩ => rfl
  | ⟨1, _⟩ => rfl

/-- The maximum over axis 1, at row p: the fold of max over the row's ten entries from the accumulator's value. -/
theorem rowMax_reduction (src : FVec Ideal S10000x10 .f32) (h : S10000x10.Reduces [1] S10000) (hφ : FKind.Formats .f32)
    (hacc : (0xFF800000#32 : BitVec 32) = FKind.maximumf.neutral .f32 hφ) (p : Fin 10000) :
    multiReduction .maximumf [1] S10000 src 0xFF800000#32 h hφ hacc (ix1 p)
      = (Finset.univ : Finset (Fin 10)).fold max (Ideal.ofBits .f32 0xFF800000#32) (fun κ => src (ix2 p κ)) := by
  refine (Ideal.multiReduction_maximumf_single src 0xFF800000#32 h hφ hacc (ix1 p)).trans ?_
  exact congrArg (fun f : Fin 10 → EReal => (Finset.univ : Finset (Fin 10)).fold max (Ideal.ofBits .f32 0xFF800000#32) f)
    (funext fun κ => congrArg src (lift_row h p κ))

/-- The sum over axis 1, at row p: the sum of the row's ten entries. -/
theorem rowSum_reduction (src : FVec Ideal S10000x10 .f32) (h : S10000x10.Reduces [1] S10000) (hφ : FKind.Formats .f32)
    (hacc : (0x00000000#32 : BitVec 32) = FKind.add.neutral .f32 hφ) (p : Fin 10000) :
    multiReduction .add [1] S10000 src 0x00000000#32 h hφ hacc (ix1 p) = ∑ κ : Fin 10, src (ix2 p κ) := by
  refine (Ideal.multiReduction_add_single src 0x00000000#32 h hφ hacc (ix1 p)).trans ?_
  exact Finset.sum_congr rfl fun κ _ => congrArg src (lift_row h p κ)

/-! ## The body's arithmetic at an entry of a block -/

/-- A block's row shifted by its own maximum: entry (p, q) less the fold of max over row p. -/
theorem shifted_apply (y : FVec Ideal S10000x10 .f32) (hr : S10000x10.Reduces [1] S10000) (hφ : FKind.Formats .f32)
    (hacc : (0xFF800000#32 : BitVec 32) = FKind.maximumf.neutral .f32 hφ) (hc : S10000.ShapeCasts S10000x1)
    (hb : S10000x1.Broadcasts S10000x10) (p : Fin 10000) (q : Fin 10) :
    subf y (broadcastTo S10000x10 (shapeCast S10000x1 (multiReduction .maximumf [1] S10000 y 0xFF800000#32 hr hφ hacc) hc) hb) (ix2 p q)
      = y (ix2 p q) - (Finset.univ : Finset (Fin 10)).fold max (Ideal.ofBits .f32 0xFF800000#32) (fun κ => y (ix2 p κ)) := by
  refine congrArg (y (ix2 p q) - ·) ?_
  refine (column_broadcast_apply _ hb p q).trans ?_
  refine (column_of_vector_apply _ hc p (0 : Fin 1)).trans ?_
  exact rowMax_reduction y hr hφ hacc p

/-- The logarithm of a row's sum, repeated along the row: entry (p, q) is the logarithm of the sum of row p. -/
theorem logSum_apply (e : FVec Ideal S10000x10 .f32) (hr : S10000x10.Reduces [1] S10000) (hφ : FKind.Formats .f32)
    (hacc : (0x00000000#32 : BitVec 32) = FKind.add.neutral .f32 hφ) (hc : S10000.ShapeCasts S10000x1)
    (hb : S10000x1.Broadcasts S10000x10) (p : Fin 10000) (q : Fin 10) :
    broadcastTo S10000x10 (log (shapeCast S10000x1 (multiReduction .add [1] S10000 e 0x00000000#32 hr hφ hacc) hc)) hb (ix2 p q)
      = Ideal.log (∑ κ : Fin 10, e (ix2 p κ)) := by
  refine (column_broadcast_apply _ hb p q).trans ?_
  refine congrArg Ideal.log ?_
  refine (column_of_vector_apply _ hc p (0 : Fin 1)).trans ?_
  exact rowSum_reduction e hr hφ hacc p

/-- The block with the one-row bias added to every row: entry (p, κ) is x0 (p, κ) + x1 (0, κ). The two casts of a
    shape to itself change nothing. -/
theorem biased_block_apply (x0 : Vec Ideal S10000x10 .f32) (x1 : Vec Ideal S1x10 .f32) (h0 : S10000x10.ShapeCasts S10000x10)
    (h1 : S1x10.ShapeCasts S1x10) (hb : S1x10.Broadcasts S10000x10) (p : Fin 10000) (κ : Fin 10) :
    (addf (shapeCast S10000x10 x0 h0) (broadcastTo S10000x10 (shapeCast S1x10 x1 h1) hb) : FVec Ideal S10000x10 .f32) (ix2 p κ)
      = biased x0 x1 p κ := by
  show shapeCast S10000x10 x0 h0 (ix2 p κ) + broadcastTo S10000x10 (shapeCast S1x10 x1 h1) hb (ix2 p κ)
    = x0 (ix2 p κ) + x1 (ix2 (0 : Fin 1) κ)
  rw [shapeCast_self, broadcastTo_1b_ab_apply, shapeCast_self]

/-- The log-softmax of each row of a block y as the body computes it, read at (p, q): with r the row p of y and μ the
    fold of max over r, the entry is (r q − μ) − log (∑ κ, exp (r κ − μ)). -/
theorem rows_logSoftmax_apply (y : FVec Ideal S10000x10 .f32) (hr : S10000x10.Reduces [1] S10000) (hφ : FKind.Formats .f32)
    (hmax : (0xFF800000#32 : BitVec 32) = FKind.maximumf.neutral .f32 hφ)
    (hadd : (0x00000000#32 : BitVec 32) = FKind.add.neutral .f32 hφ) (hc : S10000.ShapeCasts S10000x1)
    (hb : S10000x1.Broadcasts S10000x10) (p : Fin 10000) (r : Fin 10 → EReal) (hy : ∀ κ, y (ix2 p κ) = r κ) (q : Fin 10) :
    subf (subf y (broadcastTo S10000x10 (shapeCast S10000x1 (multiReduction .maximumf [1] S10000 y 0xFF800000#32 hr hφ hmax) hc) hb))
        (broadcastTo S10000x10 (log (shapeCast S10000x1 (multiReduction .add [1] S10000
          (exp (subf y (broadcastTo S10000x10 (shapeCast S10000x1 (multiReduction .maximumf [1] S10000 y 0xFF800000#32 hr hφ hmax) hc) hb)))
          0x00000000#32 hr hφ hadd) hc)) hb) (ix2 p q)
      = (r q - (Finset.univ : Finset (Fin 10)).fold max (Ideal.ofBits .f32 0xFF800000#32) r)
        - Ideal.log (∑ κ : Fin 10, Ideal.exp (r κ - (Finset.univ : Finset (Fin 10)).fold max (Ideal.ofBits .f32 0xFF800000#32) r)) := by
  have hμ : (Finset.univ : Finset (Fin 10)).fold max (Ideal.ofBits .f32 0xFF800000#32) (fun κ => y (ix2 p κ))
      = (Finset.univ : Finset (Fin 10)).fold max (Ideal.ofBits .f32 0xFF800000#32) r :=
    congrArg (fun f : Fin 10 → EReal => (Finset.univ : Finset (Fin 10)).fold max (Ideal.ofBits .f32 0xFF800000#32) f) (funext hy)
  have hz : ∀ κ : Fin 10,
      subf y (broadcastTo S10000x10 (shapeCast S10000x1 (multiReduction .maximumf [1] S10000 y 0xFF800000#32 hr hφ hmax) hc) hb) (ix2 p κ)
        = r κ - (Finset.univ : Finset (Fin 10)).fold max (Ideal.ofBits .f32 0xFF800000#32) r :=
    fun κ => (shifted_apply y hr hφ hmax hc hb p κ).trans (by rw [hy κ, hμ])
  refine (congrArg₂ (· - ·) (hz q) (logSum_apply _ hr hφ hadd hc hb p q)).trans ?_
  refine congrArg (fun s : EReal => (r q - (Finset.univ : Finset (Fin 10)).fold max (Ideal.ofBits .f32 0xFF800000#32) r) - Ideal.log s)
    (Finset.sum_congr rfl fun κ _ => ?_)
  exact congrArg Ideal.exp (hz κ)

/-- WHAT THE BODY STORES, at row p and column q of a block: the bias log-softmax of the two blocks it loaded. -/
theorem payload_apply (x0 : Vec Ideal S10000x10 .f32) (x1 : Vec Ideal S1x10 .f32) (p : Fin 10000) (q : Fin 10) :
    k2_pay1 x0 x1 (ix2 p q) = logSoftmaxBias x0 x1 (ix2 p q) := by
  unfold k2_pay1
  exact rows_logSoftmax_apply _ _ _ _ _ _ _ p (biased x0 x1 p) (fun κ => biased_block_apply x0 x1 _ _ _ p κ) q

/-! ## Rows: the log-softmax of a row depends on that row and on the bias only -/

/-- If row p of z is row p' of z', entry by entry, and the two biases agree, then row p of the bias log-softmax of z is
    row p' of that of z'. -/
theorem logSoftmaxBias_row {M M' C : Nat} (z : FVec Ideal ⟨2, ![M, C]⟩ .f32) (z' : FVec Ideal ⟨2, ![M', C]⟩ .f32)
    (b b' : FVec Ideal ⟨2, ![1, C]⟩ .f32) (p : Fin M) (p' : Fin M')
    (hz : ∀ κ : Fin C, z (ix2 p κ) = z' (ix2 p' κ)) (hb : ∀ κ : Fin C, b (ix2 (0 : Fin 1) κ) = b' (ix2 (0 : Fin 1) κ))
    (q : Fin C) : logSoftmaxBias z b (ix2 p q) = logSoftmaxBias z' b' (ix2 p' q) := by
  have hrow : biased z b p = biased z' b' p' := funext fun κ => by unfold biased; rw [hz κ, hb κ]
  have hmax : rowMax z b p = rowMax z' b' p' := by unfold rowMax; rw [hrow]
  rw [logSoftmaxBias_apply, logSoftmaxBias_apply, hrow, hmax]

/-! ## From the blocks to the array -/

/-- The printed index maps, decided over the grid: at point t the row-blocked windows are at block (t, 0), the bias
    window at block (0, 0). -/
theorem index_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK is block t of the bias log-softmax of the two arrays the call finds. -/
theorem flushed_eq (c : Dev nD) (t : Fin cfg2.N) :
    (dat2 (F := Ideal) V c).flushed 2 t
      = ((cfg2.win 2).blk t).view.read (Elt Ideal) (logSoftmaxBias (V c main_v57) (V c main_v58)) := by
  show (cfg2.win 2).cut (grid2.coords t) ((dat2 (F := Ideal) V c).after 2 t) = _
  rw [after2_2]
  unfold out2_2
  rw [View.canon_unit_zero offsets_zero]
  simp only [View.ld_unit_zero (S := S10000x10) offsets_zero, View.ld_unit_zero (S := S1x10) offsets_zero]
  obtain ⟨e0, e1, e2, e3, e4, e5⟩ := index_facts t
  have ht : t.val < 10 := Nat.lt_of_lt_of_eq t.isLt N_2
  funext j
  obtain ⟨p, q, rfl⟩ : ∃ (p : Fin 10000) (q : Fin 10), j = ix2 p q := ⟨j 0, j 1, eq_ix2 j⟩
  show k2_pay1 (iblk2 V c 0 t) (iblk2 V c 1 t) (ix2 p q)
    = logSoftmaxBias (V c main_v57) (V c main_v58) (((cfg2.win 2).blk t).view.emb (ix2 p q))
  refine (payload_apply (iblk2 V c 0 t) (iblk2 V c 1 t) p q).trans ?_
  have hout : ((cfg2.win 2).blk t).view.emb (ix2 p q)
      = (ix2 (⟨t.val * 10000 + p.val, by have := p.isLt; omega⟩ : Fin 100000) q : S100000x10.Idx) := by
    funext a; apply Fin.ext
    match a with
    | ⟨0, _⟩ => show win2_2.index t (0 : Fin 2) * 10000 + 1 * p.val = t.val * 10000 + p.val; rw [e4]; omega
    | ⟨1, _⟩ => show win2_2.index t (1 : Fin 2) * 10 + 1 * q.val = q.val; rw [e5]; omega
  rw [hout]
  refine logSoftmaxBias_row _ _ _ _ p _ (fun κ => ?_) (fun κ => ?_) q
  · show V c main_v57 (((cfg2.win 0).blk t).view.emb (ix2 p κ)) = V c main_v57 (ix2 _ κ)
    refine congrArg (V c main_v57) ?_
    funext a; apply Fin.ext
    match a with
    | ⟨0, _⟩ => show win2_0.index t (0 : Fin 2) * 10000 + 1 * p.val = t.val * 10000 + p.val; rw [e0]; omega
    | ⟨1, _⟩ => show win2_0.index t (1 : Fin 2) * 10 + 1 * κ.val = κ.val; rw [e1]; omega
  · show V c main_v58 (((cfg2.win 1).blk t).view.emb (ix2 (0 : Fin 1) κ)) = V c main_v58 (ix2 (0 : Fin 1) κ)
    refine congrArg (V c main_v58) ?_
    funext a; apply Fin.ext
    match a with
    | ⟨0, _⟩ => show win2_1.index t (0 : Fin 2) * 1 + 1 * 0 = 0; rw [e2]
    | ⟨1, _⟩ => show win2_1.index t (1 : Fin 2) * 10 + 1 * κ.val = κ.val; rw [e3]; omega

/-- An index of the result array is in point t's block iff each coordinate is in the block's range on its axis. -/
theorem mem_blk (t : Fin cfg2.N) (i : S100000x10.Idx) :
    i ∈ ((cfg2.win 2).blk t).view.set
      ↔ ∀ a : Fin 2, win2_2.index t a * S10000x10.size a ≤ (i a).val
          ∧ (i a).val < win2_2.index t a * S10000x10.size a + S10000x10.size a := by
  show i ∈ ((View.whole main_v59).slice (win2_2.rect t)).set ↔ _
  rw [View.set_slice_whole, Rect.mem_set_unit]
  exact Iff.rfl

/-- The blocks tile the array: row r lies in the block of point r / 10000. -/
theorem cover (i : S100000x10.Idx) :
    ∃ t : Fin cfg2.N, (cfg2.win 2).flush t = true ∧ i ∈ ((cfg2.win 2).blk t).view.set := by
  have hi0 : (i 0).val < 100000 := (i 0).isLt
  have hi1 : (i 1).val < 10 := (i 1).isLt
  have hN : cfg2.N = 10 := N_2
  have hlt : (i 0).val / 10000 < cfg2.N := by rw [hN]; omega
  obtain ⟨e0, e1, e2, e3, e4, e5⟩ := index_facts ⟨(i 0).val / 10000, hlt⟩
  refine ⟨⟨(i 0).val / 10000, hlt⟩, flush2_2 _, ?_⟩
  rw [mem_blk]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hlt⟩ (1 : Fin 2) * 10 ≤ (i 1).val
      ∧ (i 1).val < win2_2.index ⟨(i 0).val / 10000, hlt⟩ (1 : Fin 2) * 10 + 10
    rw [e5]
    omega

/-- After the third kernel call the 100000×10 result array is the bias log-softmax of the two arrays the call finds. -/
theorem array (c : Dev nD) :
    (dat2 (F := Ideal) V c).arrAt 2 cfg2.N = logSoftmaxBias (V c main_v57) (V c main_v58) :=
  (dat2 (F := Ideal) V c).arrAt_eq_of_cover 2 (logSoftmaxBias (V c main_v57) (V c main_v58))
    (fun t _ => flushed_eq V c t) cover

end Cert.Gcn.Region2

end
-- ==== Proof.KernelValue.lean ====
/-
  What the kernel program leaves in its result array. Its @main alternates stretches of host operations with three
  kernel calls. Reading the buffer contents at each boundary backwards from the end:
  the result array is the third call's output, the bias log-softmax of the 10-feature aggregate and the second bias
  row; that aggregate is message passing applied to the second call's output, relu (a + b1) · w2 of the 16-feature
  aggregate; that aggregate is message passing applied to the first call's output, x · w1. The edge lists, with
  their self-loops, and the edge weights are computed once, before the first call, and no later operation or call
  writes them; nor does anything write an argument. So the result is the network's function of the six arguments.
-/
import proofs.«157897_j51445118271702_1_alg».proof.Proof.Gen.KernelIdeal.Frame
import proofs.«157897_j51445118271702_1_alg».proof.Proof.Model
import proofs.«157897_j51445118271702_1_alg».proof.Proof.Region0
import proofs.«157897_j51445118271702_1_alg».proof.Proof.Region1
import proofs.«157897_j51445118271702_1_alg».proof.Proof.Region2
import Idealize.ShloMosaic.Lib.StableHlo.Run

set_option maxRecDepth 16384

noncomputable section

namespace Cert.Gcn.KernelValue

open Idealize.ShloMosaic Idealize.ShloMosaic.TcCoe Idealize.SL.Sem Idealize.ShloMosaic.StableHlo
open Cert.KernelIdeal Cert.KernelIdeal.Gen Cert.Gcn

/-! ## Each stretch of host operations, from any buffer contents X -/

section Stretches

variable (X : Valuation τ sig (Elt Ideal))

/-- Before the first call: the source list. -/
theorem pre_srcs : after (hostOps0 (F := Ideal)) X (Proc.devRef .tc main_v5) = srcs (X (Proc.devRef .tc main_arg1)) := by
  after_results_simp; rfl
/-- Before the first call: the destination list. -/
theorem pre_dsts : after (hostOps0 (F := Ideal)) X (Proc.devRef .tc main_v6) = dsts (X (Proc.devRef .tc main_arg1)) := by
  after_results_simp; rfl
/-- Before the first call: the edge weights. -/
theorem pre_weights : after (hostOps0 (F := Ideal)) X (Proc.devRef .tc main_v28) = edgeWeight (X (Proc.devRef .tc main_arg1)) := by
  after_results_simp; rfl
/-- The first stretch writes no argument. -/
theorem pre_arg0 : after (hostOps0 (F := Ideal)) X (Proc.devRef .tc main_arg0) = X (Proc.devRef .tc main_arg0) := by
  after_results_simp
theorem pre_arg2 : after (hostOps0 (F := Ideal)) X (Proc.devRef .tc main_arg2) = X (Proc.devRef .tc main_arg2) := by
  after_results_simp
theorem pre_arg3 : after (hostOps0 (F := Ideal)) X (Proc.devRef .tc main_arg3) = X (Proc.devRef .tc main_arg3) := by
  after_results_simp
theorem pre_arg4 : after (hostOps0 (F := Ideal)) X (Proc.devRef .tc main_arg4) = X (Proc.devRef .tc main_arg4) := by
  after_results_simp
theorem pre_arg5 : after (hostOps0 (F := Ideal)) X (Proc.devRef .tc main_arg5) = X (Proc.devRef .tc main_arg5) := by
  after_results_simp

/-- Between the first and the second call: message passing on the first call's output. -/
theorem mid_agg : after (hostOps1 (F := Ideal)) X (Proc.devRef .tc main_v42)
    = aggCore16 (X (Proc.devRef .tc main_v29)) (X (Proc.devRef .tc main_v5)) (X (Proc.devRef .tc main_v6)) (X (Proc.devRef .tc main_v28)) := by
  after_results_simp; rfl
/-- Between the first and the second call: the first bias as a one-row matrix. -/
theorem mid_bias : after (hostOps1 (F := Ideal)) X (Proc.devRef .tc main_v43) = biasRow16 (X (Proc.devRef .tc main_arg3)) := by
  after_results_simp; rfl
/-- The second stretch writes neither the lists, nor the weights, nor an argument. -/
theorem mid_v5 : after (hostOps1 (F := Ideal)) X (Proc.devRef .tc main_v5) = X (Proc.devRef .tc main_v5) := by
  after_results_simp
theorem mid_v6 : after (hostOps1 (F := Ideal)) X (Proc.devRef .tc main_v6) = X (Proc.devRef .tc main_v6) := by
  after_results_simp
theorem mid_v28 : after (hostOps1 (F := Ideal)) X (Proc.devRef .tc main_v28) = X (Proc.devRef .tc main_v28) := by
  after_results_simp
theorem mid_arg4 : after (hostOps1 (F := Ideal)) X (Proc.devRef .tc main_arg4) = X (Proc.devRef .tc main_arg4) := by
  after_results_simp
theorem mid_arg5 : after (hostOps1 (F := Ideal)) X (Proc.devRef .tc main_arg5) = X (Proc.devRef .tc main_arg5) := by
  after_results_simp

/-- Between the second and the third call: message passing on the second call's output. -/
theorem post_agg : after (hostOps2 (F := Ideal)) X (Proc.devRef .tc main_v57)
    = aggCore10 (X (Proc.devRef .tc main_v44)) (X (Proc.devRef .tc main_v5)) (X (Proc.devRef .tc main_v6)) (X (Proc.devRef .tc main_v28)) := by
  after_results_simp; rfl
/-- Between the second and the third call: the second bias as a one-row matrix. -/
theorem post_bias : after (hostOps2 (F := Ideal)) X (Proc.devRef .tc main_v58) = biasRow10 (X (Proc.devRef .tc main_arg5)) := by
  after_results_simp; rfl

end Stretches

/-! ## The boundaries, read backwards -/

variable (m : (ℓ : Loc nD τ sig) → Buf (Elt Ideal) ℓ) (ρ : Dev nD → PrngReg)

/-- At the first call's entry the arguments are as launched, and the lists and weights are those of the launched edge list. -/
theorem W1_arg0 (c : Dev nD) : W1 m ρ c (Proc.devRef .tc main_arg0) = m ((c : Thread nD τ).loc main_arg0) := pre_arg0 _
theorem W1_arg2 (c : Dev nD) : W1 m ρ c (Proc.devRef .tc main_arg2) = m ((c : Thread nD τ).loc main_arg2) := pre_arg2 _
theorem W1_arg3 (c : Dev nD) : W1 m ρ c (Proc.devRef .tc main_arg3) = m ((c : Thread nD τ).loc main_arg3) := pre_arg3 _
theorem W1_arg4 (c : Dev nD) : W1 m ρ c (Proc.devRef .tc main_arg4) = m ((c : Thread nD τ).loc main_arg4) := pre_arg4 _
theorem W1_arg5 (c : Dev nD) : W1 m ρ c (Proc.devRef .tc main_arg5) = m ((c : Thread nD τ).loc main_arg5) := pre_arg5 _
theorem W1_srcs (c : Dev nD) : W1 m ρ c (Proc.devRef .tc main_v5) = srcs (m ((c : Thread nD τ).loc main_arg1)) := pre_srcs _
theorem W1_dsts (c : Dev nD) : W1 m ρ c (Proc.devRef .tc main_v6) = dsts (m ((c : Thread nD τ).loc main_arg1)) := pre_dsts _
theorem W1_weights (c : Dev nD) : W1 m ρ c (Proc.devRef .tc main_v28) = edgeWeight (m ((c : Thread nD τ).loc main_arg1)) := pre_weights _

/-- The first call's output array is x · w1. -/
theorem W2_lin (c : Dev nD) : W2 m ρ c (Proc.devRef .tc main_v29)
    = matProd (m ((c : Thread nD τ).loc main_arg0)) (m ((c : Thread nD τ).loc main_arg2)) := by
  refine (W2_arr m ρ c 2).trans ?_
  rw [Region0.array (V1 m ρ) c]
  show matProd (W1 m ρ c (Proc.devRef .tc main_arg0)) (W1 m ρ c (Proc.devRef .tc main_arg2)) = _
  rw [W1_arg0, W1_arg2]

/-- The first call writes nothing but its output array. -/
theorem W2_srcs (c : Dev nD) : W2 m ρ c (Proc.devRef .tc main_v5) = srcs (m ((c : Thread nD τ).loc main_arg1)) :=
  (W2_of_ne m ρ c main_v5 (by decide)).trans (W1_srcs m ρ c)
theorem W2_dsts (c : Dev nD) : W2 m ρ c (Proc.devRef .tc main_v6) = dsts (m ((c : Thread nD τ).loc main_arg1)) :=
  (W2_of_ne m ρ c main_v6 (by decide)).trans (W1_dsts m ρ c)
theorem W2_weights (c : Dev nD) : W2 m ρ c (Proc.devRef .tc main_v28) = edgeWeight (m ((c : Thread nD τ).loc main_arg1)) :=
  (W2_of_ne m ρ c main_v28 (by decide)).trans (W1_weights m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-- At the second call's entry: the 16-feature aggregate of x · w1, the first bias row, the second weights. -/
theorem W3_agg (c : Dev nD) : W3 m ρ c (Proc.devRef .tc main_v42)
    = agg16 (matProd (m ((c : Thread nD τ).loc main_arg0)) (m ((c : Thread nD τ).loc main_arg2))) (m ((c : Thread nD τ).loc main_arg1)) := by
  refine (mid_agg (W2 m ρ c)).trans ?_
  rw [W2_lin, W2_srcs, W2_dsts, W2_weights]
  rfl
theorem W3_bias (c : Dev nD) : W3 m ρ c (Proc.devRef .tc main_v43) = biasRow16 (m ((c : Thread nD τ).loc main_arg3)) := by
  refine (mid_bias (W2 m ρ c)).trans ?_
  rw [W2_arg3]
theorem W3_arg4 (c : Dev nD) : W3 m ρ c (Proc.devRef .tc main_arg4) = m ((c : Thread nD τ).loc main_arg4) :=
  (mid_arg4 (W2 m ρ c)).trans (W2_arg4 m ρ c)
theorem W3_arg5 (c : Dev nD) : W3 m ρ c (Proc.devRef .tc main_arg5) = m ((c : Thread nD τ).loc main_arg5) :=
  (mid_arg5 (W2 m ρ c)).trans (W2_arg5 m ρ c)
theorem W3_srcs (c : Dev nD) : W3 m ρ c (Proc.devRef .tc main_v5) = srcs (m ((c : Thread nD τ).loc main_arg1)) :=
  (mid_v5 (W2 m ρ c)).trans (W2_srcs m ρ c)
theorem W3_dsts (c : Dev nD) : W3 m ρ c (Proc.devRef .tc main_v6) = dsts (m ((c : Thread nD τ).loc main_arg1)) :=
  (mid_v6 (W2 m ρ c)).trans (W2_dsts m ρ c)
theorem W3_weights (c : Dev nD) : W3 m ρ c (Proc.devRef .tc main_v28) = edgeWeight (m ((c : Thread nD τ).loc main_arg1)) :=
  (mid_v28 (W2 m ρ c)).trans (W2_weights m ρ c)

/-- The hidden layer: relu (Â (x w1) + b1) · w2. -/
abbrev hidden (c : Dev nD) : (⟨S100000x10, .f32⟩ : BufTy).Contents (Elt Ideal) :=
  reluBiasProd (agg16 (matProd (m ((c : Thread nD τ).loc main_arg0)) (m ((c : Thread nD τ).loc main_arg2))) (m ((c : Thread nD τ).loc main_arg1)))
    (biasRow16 (m ((c : Thread nD τ).loc main_arg3))) (m ((c : Thread nD τ).loc main_arg4))

/-- The second call's output array is the hidden layer. -/
theorem W4_hidden (c : Dev nD) : W4 m ρ c (Proc.devRef .tc main_v44) = hidden m c := by
  refine (W4_arr m ρ c 3).trans ?_
  rw [Region1.array (V3 m ρ) c]
  show reluBiasProd (W3 m ρ c (Proc.devRef .tc main_v42)) (W3 m ρ c (Proc.devRef .tc main_v43)) (W3 m ρ c (Proc.devRef .tc main_arg4)) = _
  rw [W3_agg, W3_bias, W3_arg4]

/-- The second call writes nothing but its output array. -/
theorem W4_srcs (c : Dev nD) : W4 m ρ c (Proc.devRef .tc main_v5) = srcs (m ((c : Thread nD τ).loc main_arg1)) :=
  (W4_of_ne m ρ c main_v5 (by decide)).trans (W3_srcs m ρ c)
theorem W4_dsts (c : Dev nD) : W4 m ρ c (Proc.devRef .tc main_v6) = dsts (m ((c : Thread nD τ).loc main_arg1)) :=
  (W4_of_ne m ρ c main_v6 (by decide)).trans (W3_dsts m ρ c)
theorem W4_weights (c : Dev nD) : W4 m ρ c (Proc.devRef .tc main_v28) = edgeWeight (m ((c : Thread nD τ).loc main_arg1)) :=
  (W4_of_ne m ρ c main_v28 (by decide)).trans (W3_weights m ρ c)
theorem W4_arg5 (c : Dev nD) : W4 m ρ c (Proc.devRef .tc main_arg5) = m ((c : Thread nD τ).loc main_arg5) :=
  (W4_of_ne m ρ c main_arg5 (by decide)).trans (W3_arg5 m ρ c)

/-- At the third call's entry: the 10-feature aggregate of the hidden layer, and the second bias row. -/
theorem W5_agg (c : Dev nD) : W5 m ρ c (Proc.devRef .tc main_v57) = agg10 (hidden m c) (m ((c : Thread nD τ).loc main_arg1)) := by
  refine (post_agg (W4 m ρ c)).trans ?_
  rw [W4_hidden, W4_srcs, W4_dsts, W4_weights]
  rfl
theorem W5_bias (c : Dev nD) : W5 m ρ c (Proc.devRef .tc main_v58) = biasRow10 (m ((c : Thread nD τ).loc main_arg5)) := by
  refine (post_bias (W4 m ρ c)).trans ?_
  rw [W4_arg5]

/-- THE RESULT ARRAY after the run is the network's function of the launch contents of the six arguments. -/
theorem result (c : Dev nD) : W6 m ρ c (Proc.devRef .tc main_v59)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_arr m ρ c 2).trans ?_
  rw [Region2.array (V5 m ρ) c]
  show logSoftmaxBias (W5 m ρ c (Proc.devRef .tc main_v57)) (W5 m ρ c (Proc.devRef .tc main_v58)) = _
  rw [W5_agg, W5_bias]
  rfl

end Cert.Gcn.KernelValue

end
-- ==== Proof.RefKeeps.lean ====
/-
  The reference's operations write none of the six argument buffers: read at an argument, the fold of the operations
  over any buffer contents gives the contents back.
-/
import proofs.«157897_j51445118271702_1_alg».proof.Proof.RefRun
import Idealize.ShloMosaic.Lib.StableHlo.Run

set_option maxRecDepth 16384

noncomputable section

namespace Cert.Gcn.RefKeeps

open Idealize.ShloMosaic Idealize.ShloMosaic.TcCoe Idealize.SL.Sem Idealize.ShloMosaic.StableHlo
open Cert.ReferenceIdeal

variable {F : FTy → Type} [FloatOps F] (X : Valuation τ sig (Elt F))

set_option maxHeartbeats 4000000 in
theorem arg0 : after (Cert.ReferenceIdeal.RunCopy.ops (F := F)) X (Proc.devRef .tc main_arg0) = X (Proc.devRef .tc main_arg0) := by
  after_results_simp
set_option maxHeartbeats 4000000 in
theorem arg1 : after (Cert.ReferenceIdeal.RunCopy.ops (F := F)) X (Proc.devRef .tc main_arg1) = X (Proc.devRef .tc main_arg1) := by
  after_results_simp
set_option maxHeartbeats 4000000 in
theorem arg2 : after (Cert.ReferenceIdeal.RunCopy.ops (F := F)) X (Proc.devRef .tc main_arg2) = X (Proc.devRef .tc main_arg2) := by
  after_results_simp
set_option maxHeartbeats 4000000 in
theorem arg3 : after (Cert.ReferenceIdeal.RunCopy.ops (F := F)) X (Proc.devRef .tc main_arg3) = X (Proc.devRef .tc main_arg3) := by
  after_results_simp
set_option maxHeartbeats 4000000 in
theorem arg4 : after (Cert.ReferenceIdeal.RunCopy.ops (F := F)) X (Proc.devRef .tc main_arg4) = X (Proc.devRef .tc main_arg4) := by
  after_results_simp
set_option maxHeartbeats 4000000 in
theorem arg5 : after (Cert.ReferenceIdeal.RunCopy.ops (F := F)) X (Proc.devRef .tc main_arg5) = X (Proc.devRef .tc main_arg5) := by
  after_results_simp

end Cert.Gcn.RefKeeps

end
-- ==== Proof.RefOps.lean ====
/-
  The reference's own spelling of the three dense stages, as functions of whole arrays: the first layer's product,
  the second layer's bias, cut at zero and product, and the output head's bias and row-wise log-softmax (a row's maximum
  taken from minus infinity and once more against minus infinity, the row shifted by it, the logarithm of the sum of
  the exponentials subtracted).
-/
import proofs.«157897_j51445118271702_1_alg».proof.Proof.Gen.ReferenceIdeal
import Idealize.ShloMosaic.PureOps.Ideal

noncomputable section

namespace Cert.Gcn.Ref

open Idealize.ShloMosaic Cert.ReferenceIdeal Cert.ReferenceIdeal.Facts₀ Cert.ReferenceIdeal.Facts

/-- The first layer's product x · w1. -/
def lin1 (x : (⟨S100000x128, .f32⟩ : BufTy).Contents (Elt Ideal)) (w : (⟨S128x16, .f32⟩ : BufTy).Contents (Elt Ideal)) :
    (⟨S100000x16, .f32⟩ : BufTy).Contents (Elt Ideal) :=
  Host.dotGeneral (F := Ideal) (φ₁ := .f32) (φ₂ := .f32) dot_S100000x128_S128x16_S100000x16_1_0_0_1_n_n none x w

/-- The second layer's input stage: (a + b) cut at zero, times w2; the bias vector b broadcast down the rows. -/
def lin2 (a : (⟨S100000x16, .f32⟩ : BufTy).Contents (Elt Ideal)) (b : (⟨S16, .f32⟩ : BufTy).Contents (Elt Ideal))
    (w : (⟨S16x10, .f32⟩ : BufTy).Contents (Elt Ideal)) : (⟨S100000x10, .f32⟩ : BufTy).Contents (Elt Ideal) :=
  Host.dotGeneral (F := Ideal) (φ₁ := .f32) (φ₂ := .f32) dot_S100000x16_S16x10_S100000x10_1_0_0_1_n_n none
    (maximumf (F := Ideal) (φ := .f32)
      (addf (F := Ideal) (φ := .f32) a (broadcastInDim S100000x16 ![0, 1] bcast_S1x16_S100000x16_0_1 (broadcastInDim S1x16 ![1] bcast_S16_S1x16_1 b)))
      (broadcastInDim S100000x16 ![] bcast_S_S100000x16 (constant (F := Ideal) S_ .f32 0x00000000#32)))
    w

/-- The logits: a + b, the bias vector b broadcast down the rows. -/
def logits (a : (⟨S100000x10, .f32⟩ : BufTy).Contents (Elt Ideal)) (b : (⟨S10, .f32⟩ : BufTy).Contents (Elt Ideal)) :
    (⟨S100000x10, .f32⟩ : BufTy).Contents (Elt Ideal) :=
  addf (F := Ideal) (φ := .f32) a (broadcastInDim S100000x10 ![0, 1] bcast_S1x10_S100000x10_0_1 (broadcastInDim S1x10 ![1] bcast_S10_S1x10_1 b))

/-- Every row's maximum, from minus infinity, and once more against minus infinity. -/
def rowMaxima (z : (⟨S100000x10, .f32⟩ : BufTy).Contents (Elt Ideal)) : (⟨S100000, .f32⟩ : BufTy).Contents (Elt Ideal) :=
  maximumf (F := Ideal) (φ := .f32) (broadcastInDim S100000 ![] bcast_S_S100000 (constant (F := Ideal) S_ .f32 0xFF800000#32))
    (Host.reduce (FloatOps.maximumf (F := Ideal) (φ := .f32)) z (constant (F := Ideal) S_ .f32 0xFF800000#32) reducesTo_S100000x10_S100000_d1 h_S_)

/-- Every row shifted by its maximum. -/
def shifted (z : (⟨S100000x10, .f32⟩ : BufTy).Contents (Elt Ideal)) : (⟨S100000x10, .f32⟩ : BufTy).Contents (Elt Ideal) :=
  subf (F := Ideal) (φ := .f32) z (broadcastInDim S100000x10 ![0, 1] bcast_S100000x1_S100000x10_0_1 (broadcastInDim S100000x1 ![0] bcast_S100000_S100000x1_0 (rowMaxima z)))

/-- The row-wise log-softmax of the logits z. -/
def logSoftmax (z : (⟨S100000x10, .f32⟩ : BufTy).Contents (Elt Ideal)) : (⟨S100000x10, .f32⟩ : BufTy).Contents (Elt Ideal) :=
  subf (F := Ideal) (φ := .f32) (shifted z)
    (broadcastInDim S100000x10 ![0, 1] bcast_S100000x1_S100000x10_0_1
      (Host.log (F := Ideal) (broadcastInDim S100000x1 ![0] bcast_S100000_S100000x1_0
        (Host.reduceAdd (F := Ideal) (Host.exp (F := Ideal) (shifted z)) (constant (F := Ideal) S_ .f32 0x00000000#32) reducesTo_S100000x10_S100000_d1 h_S_))))

end Cert.Gcn.Ref

end
-- ==== Proof.RefStages.lean ====
/-
  The reference's three dense stages are the specification's functions: its products are the plain sums over the
  contracted coordinate, its bias broadcast reads the bias vector at the column, its cut at zero is the maximum with 0,
  and its row-wise log-softmax — the row's maximum folded from minus infinity, then taken once more against minus
  infinity, which changes nothing — is the bias log-softmax.
-/
import proofs.«157897_j51445118271702_1_alg».proof.Proof.RefOps
import proofs.«157897_j51445118271702_1_alg».proof.Proof.Model
import proofs.«157897_j51445118271702_1_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.Gcn.Ref

open Idealize.ShloMosaic Idealize.ShloMosaic.ValueIdx Cert.Gcn

/-! ## The two broadcasts of a bias vector, the zero splat, and the bias vector as a one-row matrix -/

/-- A bias vector broadcast to one row and then down the rows reads, at (p, κ), its entry κ. -/
theorem bias16_apply (b : (⟨Cert.ReferenceIdeal.S16, .f32⟩ : BufTy).Contents (Elt Ideal))
    (h1 : Cert.ReferenceIdeal.S1x16.BroadcastsInDim Cert.ReferenceIdeal.S100000x16 ![0, 1])
    (h2 : Cert.ReferenceIdeal.S16.BroadcastsInDim Cert.ReferenceIdeal.S1x16 ![1]) (p : Fin 100000) (κ : Fin 16) :
    broadcastInDim Cert.ReferenceIdeal.S100000x16 ![0, 1] h1 (broadcastInDim Cert.ReferenceIdeal.S1x16 ![1] h2 b) (ix2 p κ)
      = b (ix1 κ) := by
  refine (broadcastInDim_apply _ h1 _ (ix2 p κ) (ix2 (0 : Fin 1) κ) ?_).trans
    (broadcastInDim_apply _ h2 b (ix2 (0 : Fin 1) κ) (ix1 κ) ?_)
  · intro c; match c with | ⟨0, _⟩ => rfl | ⟨1, _⟩ => rfl
  · intro c; match c with | ⟨0, _⟩ => rfl

/-- The same at ten columns. -/
theorem bias10_apply (b : (⟨Cert.ReferenceIdeal.S10, .f32⟩ : BufTy).Contents (Elt Ideal))
    (h1 : Cert.ReferenceIdeal.S1x10.BroadcastsInDim Cert.ReferenceIdeal.S100000x10 ![0, 1])
    (h2 : Cert.ReferenceIdeal.S10.BroadcastsInDim Cert.ReferenceIdeal.S1x10 ![1]) (p : Fin 100000) (κ : Fin 10) :
    broadcastInDim Cert.ReferenceIdeal.S100000x10 ![0, 1] h1 (broadcastInDim Cert.ReferenceIdeal.S1x10 ![1] h2 b) (ix2 p κ)
      = b (ix1 κ) := by
  refine (broadcastInDim_apply _ h1 _ (ix2 p κ) (ix2 (0 : Fin 1) κ) ?_).trans
    (broadcastInDim_apply _ h2 b (ix2 (0 : Fin 1) κ) (ix1 κ) ?_)
  · intro c; match c with | ⟨0, _⟩ => rfl | ⟨1, _⟩ => rfl
  · intro c; match c with | ⟨0, _⟩ => rfl

/-- The zero word broadcast to any shape reads the extended real 0. -/
theorem zeroSplat_apply {T : Shape} (h : (⟨0, ![]⟩ : Shape).BroadcastsInDim T ![]) (j : T.Idx) :
    broadcastInDim T ![] h (constant (F := Ideal) (⟨0, ![]⟩ : Shape) .f32 0x00000000#32) j = (0 : EReal) :=
  (broadcastInDim_scalar_apply h _ j).trans Ideal.ofBits_zero_f32

/-- A bias vector of 16 entries as a one-row matrix reads, at (0, κ), its entry κ. -/
theorem biasRow16_apply (b : (⟨Cert.ReferenceIdeal.S16, .f32⟩ : BufTy).Contents (Elt Ideal)) (κ : Fin 16) :
    biasRow16 b (ix2 (0 : Fin 1) κ) = b (ix1 κ) := by
  unfold biasRow16
  refine (shapeCast_addUnit_apply ![16] b _ (ix2 (0 : Fin 1) κ)).trans (congrArg b ?_)
  funext c; match c with | ⟨0, _⟩ => rfl

/-- A bias vector of 10 entries as a one-row matrix reads, at (0, κ), its entry κ. -/
theorem biasRow10_apply (b : (⟨Cert.ReferenceIdeal.S10, .f32⟩ : BufTy).Contents (Elt Ideal)) (κ : Fin 10) :
    biasRow10 b (ix2 (0 : Fin 1) κ) = b (ix1 κ) := by
  unfold biasRow10
  refine (shapeCast_addUnit_apply ![10] b _ (ix2 (0 : Fin 1) κ)).trans (congrArg b ?_)
  funext c; match c with | ⟨0, _⟩ => rfl

/-! ## The two products -/

/-- The first layer's product is the matrix product. -/
theorem lin1_eq (x : (⟨Cert.ReferenceIdeal.S100000x128, .f32⟩ : BufTy).Contents (Elt Ideal))
    (w : (⟨Cert.ReferenceIdeal.S128x16, .f32⟩ : BufTy).Contents (Elt Ideal)) :
    lin1 x w = matProd x w := by
  funext i
  obtain ⟨p, q, rfl⟩ : ∃ (p : Fin 100000) (q : Fin 16), i = ix2 p q := ⟨i 0, i 1, eq_ix2 i⟩
  exact PlainDot.dotGeneral_plain _ ⟨rfl, rfl, rfl, rfl, rfl, rfl⟩ none .single x w p q

/-- The second layer's input stage is bias, cut at zero, product, the bias vector read as a one-row matrix. -/
theorem lin2_eq (a : (⟨Cert.ReferenceIdeal.S100000x16, .f32⟩ : BufTy).Contents (Elt Ideal))
    (b : (⟨Cert.ReferenceIdeal.S16, .f32⟩ : BufTy).Contents (Elt Ideal))
    (w : (⟨Cert.ReferenceIdeal.S16x10, .f32⟩ : BufTy).Contents (Elt Ideal)) :
    lin2 a b w = reluBiasProd a (biasRow16 b) w := by
  funext i
  obtain ⟨p, q, rfl⟩ : ∃ (p : Fin 100000) (q : Fin 10), i = ix2 p q := ⟨i 0, i 1, eq_ix2 i⟩
  refine (PlainDot.dotGeneral_plain _ ⟨rfl, rfl, rfl, rfl, rfl, rfl⟩ none .single _ w p q).trans ?_
  refine Finset.sum_congr rfl fun κ _ => congrArg (· * w (ix2 κ q)) ?_
  show max (a (ix2 p κ) + _) _ = max (a (ix2 p κ) + biasRow16 b (ix2 (0 : Fin 1) κ)) 0
  rw [bias16_apply, zeroSplat_apply, biasRow16_apply]

/-! ## The head -/

/-- The host's logarithm at an index is the extended reals' logarithm of the element. -/
theorem hostLog_apply {s : Shape} (x : FVec Ideal s .f32) (i : s.Idx) : Host.log (F := Ideal) x i = Ideal.log (x i) := rfl

/-- The host's exponential at an index is the extended reals' exponential of the element. -/
theorem hostExp_apply {s : Shape} (x : FVec Ideal s .f32) (i : s.Idx) : Host.exp (F := Ideal) x i = Ideal.exp (x i) := rfl

/-- A fold of the float maximum over a finite range is the fold of the order's maximum. -/
theorem fold_maximumf {n : Nat} (c : EReal) (f : Fin n → EReal) :
    (Finset.univ : Finset (Fin n)).fold (FloatOps.maximumf (F := Ideal) (φ := .f32)) c f = (Finset.univ : Finset (Fin n)).fold max c f := rfl

/-- The logits at (p, q): the biased row p at column q. -/
theorem logits_apply (a : (⟨Cert.ReferenceIdeal.S100000x10, .f32⟩ : BufTy).Contents (Elt Ideal))
    (b : (⟨Cert.ReferenceIdeal.S10, .f32⟩ : BufTy).Contents (Elt Ideal)) (p : Fin 100000) (q : Fin 10) :
    logits a b (ix2 p q) = biased a (biasRow10 b) p q := by
  show a (ix2 p q) + _ = a (ix2 p q) + biasRow10 b (ix2 (0 : Fin 1) q)
  rw [bias10_apply, biasRow10_apply]

/-- Dropping the column axis of a 100000 × 10 array leaves the 100000 rows. -/
theorem reduces_row : Cert.ReferenceIdeal.S100000x10.Reduces [1] Cert.ReferenceIdeal.S100000 := by decide

/-- The row index p with the column κ put back on the reduced axis is (p, κ). -/
theorem lift_row (h : Cert.ReferenceIdeal.S100000x10.Reduces [1] Cert.ReferenceIdeal.S100000) (p : Fin 100000) (κ : Fin 10) :
    h.lift (ix1 p) κ = ix2 p κ := by
  funext c; match c with | ⟨0, _⟩ => rfl | ⟨1, _⟩ => rfl

/-- A vector over the rows, made a column and broadcast along the rows, reads at (p, q) its entry p. -/
theorem colBcast_apply {α : Type} (v : Cert.ReferenceIdeal.S100000.Idx → α)
    (h1 : Cert.ReferenceIdeal.S100000x1.BroadcastsInDim Cert.ReferenceIdeal.S100000x10 ![0, 1])
    (h2 : Cert.ReferenceIdeal.S100000.BroadcastsInDim Cert.ReferenceIdeal.S100000x1 ![0]) (p : Fin 100000) (q : Fin 10) :
    broadcastInDim Cert.ReferenceIdeal.S100000x10 ![0, 1] h1 (broadcastInDim Cert.ReferenceIdeal.S100000x1 ![0] h2 v) (ix2 p q)
      = v (ix1 p) := by
  refine (broadcastInDim_apply _ h1 _ (ix2 p q) (ix2 p (0 : Fin 1)) ?_).trans
    (broadcastInDim_apply _ h2 v (ix2 p (0 : Fin 1)) (ix1 p) ?_)
  · intro c; match c with | ⟨0, _⟩ => rfl | ⟨1, _⟩ => rfl
  · intro c; match c with | ⟨0, _⟩ => rfl

/-- The host's maximum over the columns, from minus infinity, at row p: the fold of the maximum over the row. -/
theorem hostRowMax_apply (z : (⟨Cert.ReferenceIdeal.S100000x10, .f32⟩ : BufTy).Contents (Elt Ideal)) (p : Fin 100000) :
    Host.reduce (FloatOps.maximumf (F := Ideal) (φ := .f32)) z (constant (F := Ideal) Cert.ReferenceIdeal.S_ .f32 0xFF800000#32)
        Cert.ReferenceIdeal.Facts₀.reducesTo_S100000x10_S100000_d1 Cert.ReferenceIdeal.Facts₀.h_S_ (ix1 p)
      = (Finset.univ : Finset (Fin 10)).fold max (Ideal.ofBits .f32 0xFF800000#32) (fun κ => z (ix2 p κ)) := by
  refine (Host.reduce_eq_fold_single _ z _ _ reduces_row _ (ix1 p)).trans ?_
  have hf : (z ∘ reduces_row.lift (ix1 p)) = fun κ : Fin 10 => z (ix2 p κ) :=
    funext fun κ => congrArg z (lift_row reduces_row p κ)
  rw [hf]
  exact fold_maximumf (Ideal.ofBits .f32 0xFF800000#32) fun κ : Fin 10 => z (ix2 p κ)

/-- Every row's maximum, at row p: the second maximum against minus infinity leaves the fold, which is at least the
    value it starts from. -/
theorem rowMaxima_apply (z : (⟨Cert.ReferenceIdeal.S100000x10, .f32⟩ : BufTy).Contents (Elt Ideal)) (p : Fin 100000) :
    rowMaxima z (ix1 p)
      = (Finset.univ : Finset (Fin 10)).fold max (Ideal.ofBits .f32 0xFF800000#32) (fun κ => z (ix2 p κ)) := by
  refine (maximumf_apply _ _ (ix1 p)).trans ?_
  refine (congrArg (max _) (hostRowMax_apply z p)).trans ?_
  refine (congrArg (fun t => max t _) (broadcastInDim_scalar_apply _ _ (ix1 p))).trans ?_
  exact max_eq_right ((Finset.le_fold_max _).mpr (Or.inl le_rfl))

/-- Every row's maximum of the logits is the maximum of the biased row. -/
theorem rowMaxima_logits (a : (⟨Cert.ReferenceIdeal.S100000x10, .f32⟩ : BufTy).Contents (Elt Ideal))
    (b : (⟨Cert.ReferenceIdeal.S10, .f32⟩ : BufTy).Contents (Elt Ideal)) (p : Fin 100000) :
    rowMaxima (logits a b) (ix1 p) = rowMax a (biasRow10 b) p := by
  refine (rowMaxima_apply (logits a b) p).trans ?_
  have hf : (fun κ : Fin 10 => logits a b (ix2 p κ)) = biased a (biasRow10 b) p := funext fun κ => logits_apply a b p κ
  rw [hf]
  rfl

/-- The shifted logits at (p, q): the biased row's entry less the biased row's maximum. -/
theorem shifted_logits (a : (⟨Cert.ReferenceIdeal.S100000x10, .f32⟩ : BufTy).Contents (Elt Ideal))
    (b : (⟨Cert.ReferenceIdeal.S10, .f32⟩ : BufTy).Contents (Elt Ideal)) (p : Fin 100000) (q : Fin 10) :
    shifted (logits a b) (ix2 p q) = biased a (biasRow10 b) p q - rowMax a (biasRow10 b) p := by
  refine (subf_apply _ _ (ix2 p q)).trans ?_
  rw [logits_apply, colBcast_apply, rowMaxima_logits]

/-- Every row's sum of exponentials, from zero, at row p. -/
theorem hostRowSumExp_apply (s : (⟨Cert.ReferenceIdeal.S100000x10, .f32⟩ : BufTy).Contents (Elt Ideal)) (p : Fin 100000) :
    Host.reduceAdd (F := Ideal) (Host.exp (F := Ideal) s) (constant (F := Ideal) Cert.ReferenceIdeal.S_ .f32 0x00000000#32)
        Cert.ReferenceIdeal.Facts₀.reducesTo_S100000x10_S100000_d1 Cert.ReferenceIdeal.Facts₀.h_S_ (ix1 p)
      = ∑ κ : Fin 10, Ideal.exp (s (ix2 p κ)) := by
  refine (hostReduceAdd_apply _ _ _ _ (ix1 p)).trans ?_
  refine (Ideal.hostReduceAdd_single _ reduces_row _ _ (ix1 p)).trans ?_
  refine (congrArg (· + _) Ideal.ofBits_zero_f32).trans ?_
  refine (zero_add _).trans ?_
  exact Finset.sum_congr rfl fun κ _ =>
    (hostExp_apply s _).trans (congrArg (fun j => Ideal.exp (s j)) (lift_row reduces_row p κ))

/-- The logarithm of every row's sum of exponentials, made a column and broadcast along the rows, at (p, q). -/
theorem logSumExp_apply (s : (⟨Cert.ReferenceIdeal.S100000x10, .f32⟩ : BufTy).Contents (Elt Ideal)) (p : Fin 100000) (q : Fin 10) :
    broadcastInDim Cert.ReferenceIdeal.S100000x10 ![0, 1] Cert.ReferenceIdeal.Facts₀.bcast_S100000x1_S100000x10_0_1
      (Host.log (F := Ideal) (broadcastInDim Cert.ReferenceIdeal.S100000x1 ![0] Cert.ReferenceIdeal.Facts₀.bcast_S100000_S100000x1_0
        (Host.reduceAdd (F := Ideal) (Host.exp (F := Ideal) s) (constant (F := Ideal) Cert.ReferenceIdeal.S_ .f32 0x00000000#32)
          Cert.ReferenceIdeal.Facts₀.reducesTo_S100000x10_S100000_d1 Cert.ReferenceIdeal.Facts₀.h_S_))) (ix2 p q)
      = Ideal.log (∑ κ : Fin 10, Ideal.exp (s (ix2 p κ))) := by
  refine (broadcastInDim_apply _ _ _ (ix2 p q) (ix2 p (0 : Fin 1)) ?_).trans ?_
  · intro c; match c with | ⟨0, _⟩ => rfl | ⟨1, _⟩ => rfl
  refine (hostLog_apply _ (ix2 p (0 : Fin 1))).trans (congrArg Ideal.log ?_)
  refine (broadcastInDim_apply _ _ _ (ix2 p (0 : Fin 1)) (ix1 p) ?_).trans (hostRowSumExp_apply s p)
  intro c; match c with | ⟨0, _⟩ => rfl

/-- The output head is the bias log-softmax, the bias vector read as a one-row matrix. -/
theorem head_eq (a : (⟨Cert.ReferenceIdeal.S100000x10, .f32⟩ : BufTy).Contents (Elt Ideal))
    (b : (⟨Cert.ReferenceIdeal.S10, .f32⟩ : BufTy).Contents (Elt Ideal)) :
    logSoftmax (logits a b) = logSoftmaxBias a (biasRow10 b) := by
  funext i
  obtain ⟨p, q, rfl⟩ : ∃ (p : Fin 100000) (q : Fin 10), i = ix2 p q := ⟨i 0, i 1, eq_ix2 i⟩
  refine Eq.trans ?_ (logSoftmaxBias_apply a (biasRow10 b) p q).symm
  refine (subf_apply _ _ (ix2 p q)).trans ?_
  rw [logSumExp_apply, shifted_logits]
  refine congrArg (fun t : EReal => (biased a (biasRow10 b) p q - rowMax a (biasRow10 b) p) - Ideal.log t) ?_
  exact Finset.sum_congr rfl fun κ _ => congrArg Ideal.exp (shifted_logits a b p κ)

end Cert.Gcn.Ref

end
-- ==== Proof.RefValue.lean ====
/-
  What the reference leaves in its result array: walking its operations in order — the first product; the edge lists
  with their self-loops, the degrees and the edge weights; message passing on 16 features; the second layer's input
  stage; the same graph quantities computed a second time from a fresh list of self-loops, equal to the first; message
  passing on 10 features; the output head — the result is the network's function of the six arguments.

  The operations are read in five consecutive stretches, each from arbitrary buffer contents X: what a stretch leaves
  in the buffers a later stretch reads is a named function of X's entries, and the buffers it does not write keep
  X's entries. Composing the five readings backwards from the result buffer gives the network's function.
-/
import proofs.«157897_j51445118271702_1_alg».proof.Proof.RefRun
import proofs.«157897_j51445118271702_1_alg».proof.Proof.RefStages
import Idealize.ShloMosaic.Lib.StableHlo.Run
import Idealize.ShloMosaic.Lib.Pipeline.Frame

set_option maxRecDepth 16384

noncomputable section

namespace Cert.Gcn.RefValue

open Idealize.ShloMosaic Idealize.ShloMosaic.TcCoe Idealize.SL.Sem Idealize.ShloMosaic.StableHlo
open Cert.ReferenceIdeal Cert.Gcn

section Reading

open Cert.ReferenceIdeal.Gen

/-! ## The operations, cut into five consecutive stretches -/

variable {F : FTy → Type} [FloatOps F]

/-- The first stretch: the two edge-list rows, the first product, the endpoint lists with their self-loops, the degrees and the edge weights. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    binary main_arg0 main_arg2 main_v4 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_v5 (iotaInDim S100000 32 0),
    binary main_v1 main_v5 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v5 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x3F800000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (maximumf : (⟨S100000, .f32⟩ : BufTy).Contents (Elt F) → (⟨S100000, .f32⟩ : BufTy).Contents (Elt F) → (⟨S100000, .f32⟩ : BufTy).Contents (Elt F)),
    unary main_v13 main_v14 (Host.rsqrt : (⟨S100000, .f32⟩ : BufTy).Contents (Elt F) → (⟨S100000, .f32⟩ : BufTy).Contents (Elt F)),
    nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v6 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_2 (constantI S_ 32 100000#32),
    unary main_c_2 main_v17 (broadcastInDim S3300000 ![] bcast_S_S3300000 : (⟨S_, .i32⟩ : BufTy).Contents (Elt F) → (⟨S3300000, .i32⟩ : BufTy).Contents (Elt F)),
    binary main_v6 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v6 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_3 (constantI S_ 32 0#32),
    unary main_c_3 main_v22 (broadcastInDim S3300000 ![] bcast_S_S3300000 : (⟨S_, .i32⟩ : BufTy).Contents (Elt F) → (⟨S3300000, .i32⟩ : BufTy).Contents (Elt F)),
    binary main_v7 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v24 (broadcastInDim S3300000 ![] bcast_S_S3300000 : (⟨S_, .i32⟩ : BufTy).Contents (Elt F) → (⟨S3300000, .i32⟩ : BufTy).Contents (Elt F)),
    binary main_v7 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v7 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The second stretch: message passing on 16 features, then the second layer's bias, cut at zero and product. -/
abbrev opsB : List (HloOp τ sig (Elt F)) :=
  [ nullary main_c_5 (constantI S_ 32 0#32),
    unary main_c_5 main_v30 (broadcastInDim S3300000 ![] bcast_S_S3300000 : (⟨S_, .i32⟩ : BufTy).Contents (Elt F) → (⟨S3300000, .i32⟩ : BufTy).Contents (Elt F)),
    binary main_v6 main_v30 main_v31 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v32 (broadcastInDim S3300000 ![] bcast_S_S3300000 : (⟨S_, .i32⟩ : BufTy).Contents (Elt F) → (⟨S3300000, .i32⟩ : BufTy).Contents (Elt F)),
    binary main_v6 main_v32 main_v33 (addi : (⟨S3300000, .i32⟩ : BufTy).Contents (Elt F) → (⟨S3300000, .i32⟩ : BufTy).Contents (Elt F) → (⟨S3300000, .i32⟩ : BufTy).Contents (Elt F)),
    ternary main_v31 main_v33 main_v6 main_v34 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v34 main_v35 (broadcastInDim S3300000x1 ![0] bcast_S3300000_S3300000x1_0 : (⟨S3300000, .i32⟩ : BufTy).Contents (Elt F) → (⟨S3300000x1, .i32⟩ : BufTy).Contents (Elt F)),
    binary main_v4 main_v35 main_v36 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v37 (broadcastInDim S3300000x1 ![0] bcast_S3300000_S3300000x1_0 : (⟨S3300000, .f32⟩ : BufTy).Contents (Elt F) → (⟨S3300000x1, .f32⟩ : BufTy).Contents (Elt F)),
    unary main_v37 main_v38 (broadcastInDim S3300000x16 ![0, 1] bcast_S3300000x1_S3300000x16_0_1 : (⟨S3300000x1, .f32⟩ : BufTy).Contents (Elt F) → (⟨S3300000x16, .f32⟩ : BufTy).Contents (Elt F)),
    binary main_v36 main_v38 main_v39 (mulf : (⟨S3300000x16, .f32⟩ : BufTy).Contents (Elt F) → (⟨S3300000x16, .f32⟩ : BufTy).Contents (Elt F) → (⟨S3300000x16, .f32⟩ : BufTy).Contents (Elt F)),
    nullary main_cst_7 (constant S_ .f32 0x00000000#32),
    unary main_cst_7 main_v40 (broadcastInDim S100000x16 ![] bcast_S_S100000x16 : (⟨S_, .f32⟩ : BufTy).Contents (Elt F) → (⟨S100000x16, .f32⟩ : BufTy).Contents (Elt F)),
    unary main_v7 main_v41 (broadcastInDim S3300000x1 ![0] bcast_S3300000_S3300000x1_0 : (⟨S3300000, .i32⟩ : BufTy).Contents (Elt F) → (⟨S3300000x1, .i32⟩ : BufTy).Contents (Elt F)),
    ternary main_v40 main_v41 main_v39 main_v42 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v43 (broadcastInDim S1x16 ![1] bcast_S16_S1x16_1 : (⟨S16, .f32⟩ : BufTy).Contents (Elt F) → (⟨S1x16, .f32⟩ : BufTy).Contents (Elt F)),
    unary main_v43 main_v44 (broadcastInDim S100000x16 ![0, 1] bcast_S1x16_S100000x16_0_1 : (⟨S1x16, .f32⟩ : BufTy).Contents (Elt F) → (⟨S100000x16, .f32⟩ : BufTy).Contents (Elt F)),
    binary main_v42 main_v44 main_v45 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v45) (TRef.of (T := ⟨S100000x16, .f32⟩) main_call0_v0) (TRef.of (T := ⟨S100000x16, .f32⟩) main_v46) maximumf,
    binary main_v46 main_arg4 main_v47 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)) ]

/-- The third stretch: the endpoint lists and the edge weights computed a second time, from a fresh list of self-loops. -/
abbrev opsC : List (HloOp τ sig (Elt F)) :=
  [ nullary main_v48 (iotaInDim S100000 32 0),
    binary main_v1 main_v48 main_v49 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v48 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_8 (constant S_ .f32 0x3F800000#32),
    unary main_cst_8 main_v51 (broadcastInDim S3300000 ![] bcast_S_S3300000 : (⟨S_, .f32⟩ : BufTy).Contents (Elt F) → (⟨S3300000, .f32⟩ : BufTy).Contents (Elt F)),
    nullary main_cst_9 (constant S_ .f32 0x00000000#32),
    unary main_cst_9 main_v52 (broadcastInDim S100000 ![] bcast_S_S100000 : (⟨S_, .f32⟩ : BufTy).Contents (Elt F) → (⟨S100000, .f32⟩ : BufTy).Contents (Elt F)),
    unary main_v50 main_v53 (broadcastInDim S3300000x1 ![0] bcast_S3300000_S3300000x1_0 : (⟨S3300000, .i32⟩ : BufTy).Contents (Elt F) → (⟨S3300000x1, .i32⟩ : BufTy).Contents (Elt F)),
    ternary main_v52 main_v53 main_v51 main_v54 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_10 (constant S_ .f32 0x3F800000#32),
    unary main_cst_10 main_v55 (broadcastInDim S100000 ![] bcast_S_S100000 : (⟨S_, .f32⟩ : BufTy).Contents (Elt F) → (⟨S100000, .f32⟩ : BufTy).Contents (Elt F)),
    binary main_v54 main_v55 main_v56 (maximumf : (⟨S100000, .f32⟩ : BufTy).Contents (Elt F) → (⟨S100000, .f32⟩ : BufTy).Contents (Elt F) → (⟨S100000, .f32⟩ : BufTy).Contents (Elt F)),
    unary main_v56 main_v57 (Host.rsqrt : (⟨S100000, .f32⟩ : BufTy).Contents (Elt F) → (⟨S100000, .f32⟩ : BufTy).Contents (Elt F)),
    nullary main_c_11 (constantI S_ 32 0#32),
    unary main_c_11 main_v58 (broadcastInDim S3300000 ![] bcast_S_S3300000 : (⟨S_, .i32⟩ : BufTy).Contents (Elt F) → (⟨S3300000, .i32⟩ : BufTy).Contents (Elt F)),
    binary main_v49 main_v58 main_v59 (cmpi .slt : (⟨S3300000, .i32⟩ : BufTy).Contents (Elt F) → (⟨S3300000, .i32⟩ : BufTy).Contents (Elt F) → (⟨S3300000, .i1⟩ : BufTy).Contents (Elt F)),
    nullary main_c_12 (constantI S_ 32 100000#32),
    unary main_c_12 main_v60 (broadcastInDim S3300000 ![] bcast_S_S3300000 : (⟨S_, .i32⟩ : BufTy).Contents (Elt F) → (⟨S3300000, .i32⟩ : BufTy).Contents (Elt F)),
    binary main_v49 main_v60 main_v61 (addi : (⟨S3300000, .i32⟩ : BufTy).Contents (Elt F) → (⟨S3300000, .i32⟩ : BufTy).Contents (Elt F) → (⟨S3300000, .i32⟩ : BufTy).Contents (Elt F)),
    ternary main_v59 main_v61 main_v49 main_v62 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v62 main_v63 (broadcastInDim S3300000x1 ![0] bcast_S3300000_S3300000x1_0 : (⟨S3300000, .i32⟩ : BufTy).Contents (Elt F) → (⟨S3300000x1, .i32⟩ : BufTy).Contents (Elt F)),
    binary main_v57 main_v63 main_v64 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_13 (constantI S_ 32 0#32),
    unary main_c_13 main_v65 (broadcastInDim S3300000 ![] bcast_S_S3300000 : (⟨S_, .i32⟩ : BufTy).Contents (Elt F) → (⟨S3300000, .i32⟩ : BufTy).Contents (Elt F)),
    binary main_v50 main_v65 main_v66 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v67 (broadcastInDim S3300000 ![] bcast_S_S3300000 : (⟨S_, .i32⟩ : BufTy).Contents (Elt F) → (⟨S3300000, .i32⟩ : BufTy).Contents (Elt F)),
    binary main_v50 main_v67 main_v68 (addi : (⟨S3300000, .i32⟩ : BufTy).Contents (Elt F) → (⟨S3300000, .i32⟩ : BufTy).Contents (Elt F) → (⟨S3300000, .i32⟩ : BufTy).Contents (Elt F)),
    ternary main_v66 main_v68 main_v50 main_v69 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v69 main_v70 (broadcastInDim S3300000x1 ![0] bcast_S3300000_S3300000x1_0 : (⟨S3300000, .i32⟩ : BufTy).Contents (Elt F) → (⟨S3300000x1, .i32⟩ : BufTy).Contents (Elt F)),
    binary main_v57 main_v70 main_v71 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v64 main_v71 main_v72 (mulf : (⟨S3300000, .f32⟩ : BufTy).Contents (Elt F) → (⟨S3300000, .f32⟩ : BufTy).Contents (Elt F) → (⟨S3300000, .f32⟩ : BufTy).Contents (Elt F)) ]

/-- The fourth stretch: message passing on 10 features, then the second bias. -/
abbrev opsD : List (HloOp τ sig (Elt F)) :=
  [ nullary main_c_15 (constantI S_ 32 0#32),
    unary main_c_15 main_v73 (broadcastInDim S3300000 ![] bcast_S_S3300000 : (⟨S_, .i32⟩ : BufTy).Contents (Elt F) → (⟨S3300000, .i32⟩ : BufTy).Contents (Elt F)),
    binary main_v49 main_v73 main_v74 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v75 (broadcastInDim S3300000 ![] bcast_S_S3300000 : (⟨S_, .i32⟩ : BufTy).Contents (Elt F) → (⟨S3300000, .i32⟩ : BufTy).Contents (Elt F)),
    binary main_v49 main_v75 main_v76 (addi : (⟨S3300000, .i32⟩ : BufTy).Contents (Elt F) → (⟨S3300000, .i32⟩ : BufTy).Contents (Elt F) → (⟨S3300000, .i32⟩ : BufTy).Contents (Elt F)),
    ternary main_v74 main_v76 main_v49 main_v77 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v77 main_v78 (broadcastInDim S3300000x1 ![0] bcast_S3300000_S3300000x1_0 : (⟨S3300000, .i32⟩ : BufTy).Contents (Elt F) → (⟨S3300000x1, .i32⟩ : BufTy).Contents (Elt F)),
    binary main_v47 main_v78 main_v79 ((fun x i => Host.gather gather_S100000x10_S3300000x1_S3300000x10_1_0_n_n_0_1_110 x i) : (⟨S100000x10, .f32⟩ : BufTy).Contents (Elt F) → (⟨S3300000x1, .i32⟩ : BufTy).Contents (Elt F) → (⟨S3300000x10, .f32⟩ : BufTy).Contents (Elt F)),
    unary main_v72 main_v80 (broadcastInDim S3300000x1 ![0] bcast_S3300000_S3300000x1_0 : (⟨S3300000, .f32⟩ : BufTy).Contents (Elt F) → (⟨S3300000x1, .f32⟩ : BufTy).Contents (Elt F)),
    unary main_v80 main_v81 (broadcastInDim S3300000x10 ![0, 1] bcast_S3300000x1_S3300000x10_0_1 : (⟨S3300000x1, .f32⟩ : BufTy).Contents (Elt F) → (⟨S3300000x10, .f32⟩ : BufTy).Contents (Elt F)),
    binary main_v79 main_v81 main_v82 (mulf : (⟨S3300000x10, .f32⟩ : BufTy).Contents (Elt F) → (⟨S3300000x10, .f32⟩ : BufTy).Contents (Elt F) → (⟨S3300000x10, .f32⟩ : BufTy).Contents (Elt F)),
    nullary main_cst_17 (constant S_ .f32 0x00000000#32),
    unary main_cst_17 main_v83 (broadcastInDim S100000x10 ![] bcast_S_S100000x10 : (⟨S_, .f32⟩ : BufTy).Contents (Elt F) → (⟨S100000x10, .f32⟩ : BufTy).Contents (Elt F)),
    unary main_v50 main_v84 (broadcastInDim S3300000x1 ![0] bcast_S3300000_S3300000x1_0 : (⟨S3300000, .i32⟩ : BufTy).Contents (Elt F) → (⟨S3300000x1, .i32⟩ : BufTy).Contents (Elt F)),
    ternary main_v83 main_v84 main_v82 main_v85 ((fun x i u => Host.scatterAdd scatter_S100000x10_S3300000x1_S3300000x10_1_0_0_1 x i u) : (⟨S100000x10, .f32⟩ : BufTy).Contents (Elt F) → (⟨S3300000x1, .i32⟩ : BufTy).Contents (Elt F) → (⟨S3300000x10, .f32⟩ : BufTy).Contents (Elt F) → (⟨S100000x10, .f32⟩ : BufTy).Contents (Elt F)),
    unary main_arg5 main_v86 (broadcastInDim S1x10 ![1] bcast_S10_S1x10_1 : (⟨S10, .f32⟩ : BufTy).Contents (Elt F) → (⟨S1x10, .f32⟩ : BufTy).Contents (Elt F)),
    unary main_v86 main_v87 (broadcastInDim S100000x10 ![0, 1] bcast_S1x10_S100000x10_0_1 : (⟨S1x10, .f32⟩ : BufTy).Contents (Elt F) → (⟨S100000x10, .f32⟩ : BufTy).Contents (Elt F)),
    binary main_v85 main_v87 main_v88 (addf : (⟨S100000x10, .f32⟩ : BufTy).Contents (Elt F) → (⟨S100000x10, .f32⟩ : BufTy).Contents (Elt F) → (⟨S100000x10, .f32⟩ : BufTy).Contents (Elt F)) ]

/-- The fifth stretch: the row-wise log-softmax. -/
abbrev opsE : List (HloOp τ sig (Elt F)) :=
  [ TRef.nullary (TRef.of (T := ⟨S_, .f32⟩) main_call1_cst) (constant S_ .f32 0xFF800000#32),
    TRef.binary (TRef.of (T := ⟨S100000x10, .f32⟩) main_v88) (TRef.of (T := ⟨S_, .f32⟩) main_call1_cst) (TRef.of (T := ⟨S100000, .f32⟩) main_call1_v0) (fun x v => Host.reduce FloatOps.maximumf x v reducesTo_S100000x10_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x10, .f32⟩) main_call1_v4) (broadcastInDim S100000x10 ![0, 1] bcast_S100000x1_S100000x10_0_1),
    TRef.binary (TRef.of (T := ⟨S100000x10, .f32⟩) main_v88) (TRef.of (T := ⟨S100000x10, .f32⟩) main_call1_v4) (TRef.of (T := ⟨S100000x10, .f32⟩) main_call1_v5) subf,
    TRef.unary (TRef.of (T := ⟨S100000x10, .f32⟩) main_call1_v5) (TRef.of (T := ⟨S100000x10, .f32⟩) main_call1_v6) Host.exp,
    TRef.nullary (TRef.of (T := ⟨S_, .f32⟩) main_call1_cst_1) (constant S_ .f32 0x00000000#32),
    TRef.binary (TRef.of (T := ⟨S100000x10, .f32⟩) main_call1_v6) (TRef.of (T := ⟨S_, .f32⟩) main_call1_cst_1) (TRef.of (T := ⟨S100000, .f32⟩) main_call1_v7) (fun x v => Host.reduceAdd x v reducesTo_S100000x10_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x10, .f32⟩) main_call1_v10) (broadcastInDim S100000x10 ![0, 1] bcast_S100000x1_S100000x10_0_1),
    TRef.binary (TRef.of (T := ⟨S100000x10, .f32⟩) main_call1_v5) (TRef.of (T := ⟨S100000x10, .f32⟩) main_call1_v10) (TRef.of (T := ⟨S100000x10, .f32⟩) main_v89) subf ]

/-- The five stretches, in order, are the reference's operations. -/
theorem ops_eq : (Cert.ReferenceIdeal.RunCopy.ops (F := F)) = opsA ++ opsB ++ opsC ++ opsD ++ opsE := rfl

/-! ## The two called functions' operations, over their buffers directly

An operation of a called function is stated at the type of the tensor value its buffer holds and moved to the buffer's
own type along an equation between the two; for these buffers the two are one type spelt twice, the move is the
identity, and the operation is the plain one over the buffers. -/

theorem relu_1 : (TRef.nullary (TRef.of (T := ⟨S_, .f32⟩) main_call0_cst) (constant S_ .f32 0x00000000#32) : HloOp τ sig (Elt F))
    = nullary main_call0_cst (constant S_ .f32 0x00000000#32) := rfl

theorem relu_2 : (TRef.unary (TRef.of (T := ⟨S_, .f32⟩) main_call0_cst) (TRef.of (T := ⟨S100000x16, .f32⟩) main_call0_v0) (broadcastInDim S100000x16 ![] bcast_S_S100000x16) : HloOp τ sig (Elt F))
    = unary main_call0_cst main_call0_v0 (broadcastInDim S100000x16 ![] bcast_S_S100000x16 : (⟨S_, .f32⟩ : BufTy).Contents (Elt F) → (⟨S100000x16, .f32⟩ : BufTy).Contents (Elt F)) := rfl

theorem relu_3 : (TRef.binary (TRef.of (T := ⟨S100000x16, .f32⟩) main_v45) (TRef.of (T := ⟨S100000x16, .f32⟩) main_call0_v0) (TRef.of (T := ⟨S100000x16, .f32⟩) main_v46) maximumf : HloOp τ sig (Elt F))
    = binary main_v45 main_call0_v0 main_v46 (maximumf : (⟨S100000x16, .f32⟩ : BufTy).Contents (Elt F) → (⟨S100000x16, .f32⟩ : BufTy).Contents (Elt F) → (⟨S100000x16, .f32⟩ : BufTy).Contents (Elt F)) := rfl

theorem lsm_1 : (TRef.nullary (TRef.of (T := ⟨S_, .f32⟩) main_call1_cst) (constant S_ .f32 0xFF800000#32) : HloOp τ sig (Elt F))
    = nullary main_call1_cst (constant S_ .f32 0xFF800000#32) := rfl

theorem lsm_2 : (TRef.binary (TRef.of (T := ⟨S100000x10, .f32⟩) main_v88) (TRef.of (T := ⟨S_, .f32⟩) main_call1_cst) (TRef.of (T := ⟨S100000, .f32⟩) main_call1_v0) (fun x v => Host.reduce FloatOps.maximumf x v reducesTo_S100000x10_S100000_d1 h_S_) : HloOp τ sig (Elt F))
    = binary main_v88 main_call1_cst main_call1_v0 ((fun x v => Host.reduce FloatOps.maximumf x v reducesTo_S100000x10_S100000_d1 h_S_) : (⟨S100000x10, .f32⟩ : BufTy).Contents (Elt F) → (⟨S_, .f32⟩ : BufTy).Contents (Elt F) → (⟨S100000, .f32⟩ : BufTy).Contents (Elt F)) := by
  delta TRef.binary TRef.toBuf TRef.ofBuf TRef.of
  dsimp only [cast_eq]
  rfl

theorem lsm_3 : (TRef.nullary (TRef.of (T := ⟨S_, .f32⟩) main_call1_cst_0) (constant S_ .f32 0xFF800000#32) : HloOp τ sig (Elt F))
    = nullary main_call1_cst_0 (constant S_ .f32 0xFF800000#32) := rfl

theorem lsm_4 : (TRef.unary (TRef.of (T := ⟨S_, .f32⟩) main_call1_cst_0) (TRef.of (T := ⟨S100000, .f32⟩) main_call1_v1) (broadcastInDim S100000 ![] bcast_S_S100000) : HloOp τ sig (Elt F))
    = unary main_call1_cst_0 main_call1_v1 (broadcastInDim S100000 ![] bcast_S_S100000 : (⟨S_, .f32⟩ : BufTy).Contents (Elt F) → (⟨S100000, .f32⟩ : BufTy).Contents (Elt F)) := rfl

theorem lsm_5 : (TRef.binary (TRef.of (T := ⟨S100000, .f32⟩) main_call1_v1) (TRef.of (T := ⟨S100000, .f32⟩) main_call1_v0) (TRef.of (T := ⟨S100000, .f32⟩) main_call1_v2) maximumf : HloOp τ sig (Elt F))
    = binary main_call1_v1 main_call1_v0 main_call1_v2 (maximumf : (⟨S100000, .f32⟩ : BufTy).Contents (Elt F) → (⟨S100000, .f32⟩ : BufTy).Contents (Elt F) → (⟨S100000, .f32⟩ : BufTy).Contents (Elt F)) := rfl

theorem lsm_6 : (TRef.unary (TRef.of (T := ⟨S100000, .f32⟩) main_call1_v2) (TRef.of (T := ⟨S100000x1, .f32⟩) main_call1_v3) (broadcastInDim S100000x1 ![0] bcast_S100000_S100000x1_0) : HloOp τ sig (Elt F))
    = unary main_call1_v2 main_call1_v3 (broadcastInDim S100000x1 ![0] bcast_S100000_S100000x1_0 : (⟨S100000, .f32⟩ : BufTy).Contents (Elt F) → (⟨S100000x1, .f32⟩ : BufTy).Contents (Elt F)) := rfl

theorem lsm_7 : (TRef.unary (TRef.of (T := ⟨S100000x1, .f32⟩) main_call1_v3) (TRef.of (T := ⟨S100000x10, .f32⟩) main_call1_v4) (broadcastInDim S100000x10 ![0, 1] bcast_S100000x1_S100000x10_0_1) : HloOp τ sig (Elt F))
    = unary main_call1_v3 main_call1_v4 (broadcastInDim S100000x10 ![0, 1] bcast_S100000x1_S100000x10_0_1 : (⟨S100000x1, .f32⟩ : BufTy).Contents (Elt F) → (⟨S100000x10, .f32⟩ : BufTy).Contents (Elt F)) := rfl

theorem lsm_8 : (TRef.binary (TRef.of (T := ⟨S100000x10, .f32⟩) main_v88) (TRef.of (T := ⟨S100000x10, .f32⟩) main_call1_v4) (TRef.of (T := ⟨S100000x10, .f32⟩) main_call1_v5) subf : HloOp τ sig (Elt F))
    = binary main_v88 main_call1_v4 main_call1_v5 (subf : (⟨S100000x10, .f32⟩ : BufTy).Contents (Elt F) → (⟨S100000x10, .f32⟩ : BufTy).Contents (Elt F) → (⟨S100000x10, .f32⟩ : BufTy).Contents (Elt F)) := rfl

theorem lsm_9 : (TRef.unary (TRef.of (T := ⟨S100000x10, .f32⟩) main_call1_v5) (TRef.of (T := ⟨S100000x10, .f32⟩) main_call1_v6) Host.exp : HloOp τ sig (Elt F))
    = unary main_call1_v5 main_call1_v6 (Host.exp : (⟨S100000x10, .f32⟩ : BufTy).Contents (Elt F) → (⟨S100000x10, .f32⟩ : BufTy).Contents (Elt F)) := rfl

theorem lsm_10 : (TRef.nullary (TRef.of (T := ⟨S_, .f32⟩) main_call1_cst_1) (constant S_ .f32 0x00000000#32) : HloOp τ sig (Elt F))
    = nullary main_call1_cst_1 (constant S_ .f32 0x00000000#32) := rfl

theorem lsm_11 : (TRef.binary (TRef.of (T := ⟨S100000x10, .f32⟩) main_call1_v6) (TRef.of (T := ⟨S_, .f32⟩) main_call1_cst_1) (TRef.of (T := ⟨S100000, .f32⟩) main_call1_v7) (fun x v => Host.reduceAdd x v reducesTo_S100000x10_S100000_d1 h_S_) : HloOp τ sig (Elt F))
    = binary main_call1_v6 main_call1_cst_1 main_call1_v7 ((fun x v => Host.reduceAdd x v reducesTo_S100000x10_S100000_d1 h_S_) : (⟨S100000x10, .f32⟩ : BufTy).Contents (Elt F) → (⟨S_, .f32⟩ : BufTy).Contents (Elt F) → (⟨S100000, .f32⟩ : BufTy).Contents (Elt F)) := rfl

theorem lsm_12 : (TRef.unary (TRef.of (T := ⟨S100000, .f32⟩) main_call1_v7) (TRef.of (T := ⟨S100000x1, .f32⟩) main_call1_v8) (broadcastInDim S100000x1 ![0] bcast_S100000_S100000x1_0) : HloOp τ sig (Elt F))
    = unary main_call1_v7 main_call1_v8 (broadcastInDim S100000x1 ![0] bcast_S100000_S100000x1_0 : (⟨S100000, .f32⟩ : BufTy).Contents (Elt F) → (⟨S100000x1, .f32⟩ : BufTy).Contents (Elt F)) := rfl

theorem lsm_13 : (TRef.unary (TRef.of (T := ⟨S100000x1, .f32⟩) main_call1_v8) (TRef.of (T := ⟨S100000x1, .f32⟩) main_call1_v9) Host.log : HloOp τ sig (Elt F))
    = unary main_call1_v8 main_call1_v9 (Host.log : (⟨S100000x1, .f32⟩ : BufTy).Contents (Elt F) → (⟨S100000x1, .f32⟩ : BufTy).Contents (Elt F)) := rfl

theorem lsm_14 : (TRef.unary (TRef.of (T := ⟨S100000x1, .f32⟩) main_call1_v9) (TRef.of (T := ⟨S100000x10, .f32⟩) main_call1_v10) (broadcastInDim S100000x10 ![0, 1] bcast_S100000x1_S100000x10_0_1) : HloOp τ sig (Elt F))
    = unary main_call1_v9 main_call1_v10 (broadcastInDim S100000x10 ![0, 1] bcast_S100000x1_S100000x10_0_1 : (⟨S100000x1, .f32⟩ : BufTy).Contents (Elt F) → (⟨S100000x10, .f32⟩ : BufTy).Contents (Elt F)) := rfl

theorem lsm_15 : (TRef.binary (TRef.of (T := ⟨S100000x10, .f32⟩) main_call1_v5) (TRef.of (T := ⟨S100000x10, .f32⟩) main_call1_v10) (TRef.of (T := ⟨S100000x10, .f32⟩) main_v89) subf : HloOp τ sig (Elt F))
    = binary main_call1_v5 main_call1_v10 main_v89 (subf : (⟨S100000x10, .f32⟩ : BufTy).Contents (Elt F) → (⟨S100000x10, .f32⟩ : BufTy).Contents (Elt F) → (⟨S100000x10, .f32⟩ : BufTy).Contents (Elt F)) := rfl

/-- The second stretch with the cut at zero written over its buffers directly. -/
abbrev opsBu : List (HloOp τ sig (Elt F)) :=
  [ nullary main_c_5 (constantI S_ 32 0#32),
    unary main_c_5 main_v30 (broadcastInDim S3300000 ![] bcast_S_S3300000 : (⟨S_, .i32⟩ : BufTy).Contents (Elt F) → (⟨S3300000, .i32⟩ : BufTy).Contents (Elt F)),
    binary main_v6 main_v30 main_v31 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v32 (broadcastInDim S3300000 ![] bcast_S_S3300000 : (⟨S_, .i32⟩ : BufTy).Contents (Elt F) → (⟨S3300000, .i32⟩ : BufTy).Contents (Elt F)),
    binary main_v6 main_v32 main_v33 (addi : (⟨S3300000, .i32⟩ : BufTy).Contents (Elt F) → (⟨S3300000, .i32⟩ : BufTy).Contents (Elt F) → (⟨S3300000, .i32⟩ : BufTy).Contents (Elt F)),
    ternary main_v31 main_v33 main_v6 main_v34 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v34 main_v35 (broadcastInDim S3300000x1 ![0] bcast_S3300000_S3300000x1_0 : (⟨S3300000, .i32⟩ : BufTy).Contents (Elt F) → (⟨S3300000x1, .i32⟩ : BufTy).Contents (Elt F)),
    binary main_v4 main_v35 main_v36 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v29 main_v37 (broadcastInDim S3300000x1 ![0] bcast_S3300000_S3300000x1_0 : (⟨S3300000, .f32⟩ : BufTy).Contents (Elt F) → (⟨S3300000x1, .f32⟩ : BufTy).Contents (Elt F)),
    unary main_v37 main_v38 (broadcastInDim S3300000x16 ![0, 1] bcast_S3300000x1_S3300000x16_0_1 : (⟨S3300000x1, .f32⟩ : BufTy).Contents (Elt F) → (⟨S3300000x16, .f32⟩ : BufTy).Contents (Elt F)),
    binary main_v36 main_v38 main_v39 (mulf : (⟨S3300000x16, .f32⟩ : BufTy).Contents (Elt F) → (⟨S3300000x16, .f32⟩ : BufTy).Contents (Elt F) → (⟨S3300000x16, .f32⟩ : BufTy).Contents (Elt F)),
    nullary main_cst_7 (constant S_ .f32 0x00000000#32),
    unary main_cst_7 main_v40 (broadcastInDim S100000x16 ![] bcast_S_S100000x16 : (⟨S_, .f32⟩ : BufTy).Contents (Elt F) → (⟨S100000x16, .f32⟩ : BufTy).Contents (Elt F)),
    unary main_v7 main_v41 (broadcastInDim S3300000x1 ![0] bcast_S3300000_S3300000x1_0 : (⟨S3300000, .i32⟩ : BufTy).Contents (Elt F) → (⟨S3300000x1, .i32⟩ : BufTy).Contents (Elt F)),
    ternary main_v40 main_v41 main_v39 main_v42 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v43 (broadcastInDim S1x16 ![1] bcast_S16_S1x16_1 : (⟨S16, .f32⟩ : BufTy).Contents (Elt F) → (⟨S1x16, .f32⟩ : BufTy).Contents (Elt F)),
    unary main_v43 main_v44 (broadcastInDim S100000x16 ![0, 1] bcast_S1x16_S100000x16_0_1 : (⟨S1x16, .f32⟩ : BufTy).Contents (Elt F) → (⟨S100000x16, .f32⟩ : BufTy).Contents (Elt F)),
    binary main_v42 main_v44 main_v45 (addf : (⟨S100000x16, .f32⟩ : BufTy).Contents (Elt F) → (⟨S100000x16, .f32⟩ : BufTy).Contents (Elt F) → (⟨S100000x16, .f32⟩ : BufTy).Contents (Elt F)),
    nullary main_call0_cst (constant S_ .f32 0x00000000#32),
    unary main_call0_cst main_call0_v0 (broadcastInDim S100000x16 ![] bcast_S_S100000x16 : (⟨S_, .f32⟩ : BufTy).Contents (Elt F) → (⟨S100000x16, .f32⟩ : BufTy).Contents (Elt F)),
    binary main_v45 main_call0_v0 main_v46 (maximumf : (⟨S100000x16, .f32⟩ : BufTy).Contents (Elt F) → (⟨S100000x16, .f32⟩ : BufTy).Contents (Elt F) → (⟨S100000x16, .f32⟩ : BufTy).Contents (Elt F)),
    binary main_v46 main_arg4 main_v47 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)) ]

/-- The fifth stretch written over its buffers directly. -/
abbrev opsEu : List (HloOp τ sig (Elt F)) :=
  [ nullary main_call1_cst (constant S_ .f32 0xFF800000#32),
    binary main_v88 main_call1_cst main_call1_v0 ((fun x v => Host.reduce FloatOps.maximumf x v reducesTo_S100000x10_S100000_d1 h_S_) : (⟨S100000x10, .f32⟩ : BufTy).Contents (Elt F) → (⟨S_, .f32⟩ : BufTy).Contents (Elt F) → (⟨S100000, .f32⟩ : BufTy).Contents (Elt F)),
    nullary main_call1_cst_0 (constant S_ .f32 0xFF800000#32),
    unary main_call1_cst_0 main_call1_v1 (broadcastInDim S100000 ![] bcast_S_S100000 : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 (broadcastInDim S100000x1 ![0] bcast_S100000_S100000x1_0 : (⟨S100000, .f32⟩ : BufTy).Contents (Elt F) → (⟨S100000x1, .f32⟩ : BufTy).Contents (Elt F)),
    unary main_call1_v3 main_call1_v4 (broadcastInDim S100000x10 ![0, 1] bcast_S100000x1_S100000x10_0_1 : (⟨S100000x1, .f32⟩ : BufTy).Contents (Elt F) → (⟨S100000x10, .f32⟩ : BufTy).Contents (Elt F)),
    binary main_v88 main_call1_v4 main_call1_v5 (subf : (⟨S100000x10, .f32⟩ : BufTy).Contents (Elt F) → (⟨S100000x10, .f32⟩ : BufTy).Contents (Elt F) → (⟨S100000x10, .f32⟩ : BufTy).Contents (Elt F)),
    unary main_call1_v5 main_call1_v6 (Host.exp : (⟨S100000x10, .f32⟩ : BufTy).Contents (Elt F) → (⟨S100000x10, .f32⟩ : BufTy).Contents (Elt F)),
    nullary main_call1_cst_1 (constant S_ .f32 0x00000000#32),
    binary main_call1_v6 main_call1_cst_1 main_call1_v7 ((fun x v => Host.reduceAdd x v reducesTo_S100000x10_S100000_d1 h_S_) : (⟨S100000x10, .f32⟩ : BufTy).Contents (Elt F) → (⟨S_, .f32⟩ : BufTy).Contents (Elt F) → (⟨S100000, .f32⟩ : BufTy).Contents (Elt F)),
    unary main_call1_v7 main_call1_v8 (broadcastInDim S100000x1 ![0] bcast_S100000_S100000x1_0 : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 (broadcastInDim S100000x10 ![0, 1] bcast_S100000x1_S100000x10_0_1 : (⟨S100000x1, .f32⟩ : BufTy).Contents (Elt F) → (⟨S100000x10, .f32⟩ : BufTy).Contents (Elt F)),
    binary main_call1_v5 main_call1_v10 main_v89 (subf : (⟨S100000x10, .f32⟩ : BufTy).Contents (Elt F) → (⟨S100000x10, .f32⟩ : BufTy).Contents (Elt F) → (⟨S100000x10, .f32⟩ : BufTy).Contents (Elt F)) ]

theorem opsB_eq : (opsB (F := F)) = opsBu := by
  unfold opsB opsBu
  rw [relu_1, relu_2, relu_3]

theorem opsE_eq : (opsE (F := F)) = opsEu := by
  unfold opsE opsEu
  rw [lsm_1, lsm_2, lsm_3, lsm_4, lsm_5, lsm_6, lsm_7, lsm_8, lsm_9, lsm_10, lsm_11, lsm_12, lsm_13, lsm_14, lsm_15]

/-! ## The edge list's two rows, and the quantities computed from a pair of endpoint lists -/

/-- The sources' row of the edge list, as a list. -/
def srcRow (ei : (⟨S2x3200000, .i32⟩ : BufTy).Contents (Elt Ideal)) : (⟨S3200000, .i32⟩ : BufTy).Contents (Elt Ideal) :=
  shapeCast S3200000 (extractStridedSlice S1x3200000 ![0, 0] ei slices_S2x3200000_S1x3200000_0_0) shapeCasts_S1x3200000_S3200000

/-- The destinations' row of the edge list, as a list. -/
def dstRow (ei : (⟨S2x3200000, .i32⟩ : BufTy).Contents (Elt Ideal)) : (⟨S3200000, .i32⟩ : BufTy).Contents (Elt Ideal) :=
  shapeCast S3200000 (extractStridedSlice S1x3200000 ![1, 0] ei slices_S2x3200000_S1x3200000_1_0) shapeCasts_S1x3200000_S3200000

/-- A row followed by the self-loops 0, 1, …, 99999. -/
def withLoops (r : (⟨S3200000, .i32⟩ : BufTy).Contents (Elt Ideal)) : (⟨S3300000, .i32⟩ : BufTy).Contents (Elt Ideal) :=
  concatenate S3300000 0 [⟨S3200000, r⟩, ⟨S100000, iotaInDim S100000 32 0⟩] concatenates_S3200000_S100000_S3300000_d0

/-- deg^(-1/2) per node from the destination list: the number of entries that name the node, floored at one. -/
def invSqrtDegOf (d : (⟨S3300000, .i32⟩ : BufTy).Contents (Elt Ideal)) : (⟨S100000, .f32⟩ : BufTy).Contents (Elt Ideal) :=
  Host.rsqrt (F := Ideal) (maximumf (F := Ideal)
    (Host.scatterAdd (F := Ideal) scatter_S100000_S3300000x1_S3300000_n_0_0_1
      (broadcastInDim S100000 ![] bcast_S_S100000 (constant (F := Ideal) S_ .f32 0x00000000#32)) (col d)
      (broadcastInDim S3300000 ![] bcast_S_S3300000 (constant (F := Ideal) S_ .f32 0x3F800000#32)))
    (broadcastInDim S100000 ![] bcast_S_S100000 (constant (F := Ideal) S_ .f32 0x3F800000#32)))

/-- The weight of every entry from the two endpoint lists: deg(s)^(-1/2) · deg(d)^(-1/2). -/
def weightsOf (s d : (⟨S3300000, .i32⟩ : BufTy).Contents (Elt Ideal)) : (⟨S3300000, .f32⟩ : BufTy).Contents (Elt Ideal) :=
  mulf (F := Ideal) (φ := .f32) (Host.gather gather_S100000_S3300000x1_S3300000_n_0_n_n_0_1_1 (invSqrtDegOf d) (col (wrap s)))
    (Host.gather gather_S100000_S3300000x1_S3300000_n_0_n_n_0_1_1 (invSqrtDegOf d) (col (wrap d)))

/-- The sources' row with the self-loops is the source list. -/
theorem withLoops_srcRow (ei : (⟨S2x3200000, .i32⟩ : BufTy).Contents (Elt Ideal)) : withLoops (srcRow ei) = srcs ei := rfl

/-- The destinations' row with the self-loops is the destination list. -/
theorem withLoops_dstRow (ei : (⟨S2x3200000, .i32⟩ : BufTy).Contents (Elt Ideal)) : withLoops (dstRow ei) = dsts ei := rfl

/-- The weights from the edge list's own two endpoint lists are its edge weights. -/
theorem weightsOf_ends (ei : (⟨S2x3200000, .i32⟩ : BufTy).Contents (Elt Ideal)) : weightsOf (srcs ei) (dsts ei) = edgeWeight ei := rfl

/-! ## Each stretch, from any buffer contents X -/

section Stretches

variable (X : Valuation τ sig (Elt Ideal))

/-- After the first stretch: the two rows of the edge list. -/
theorem A_srcRow : after (opsA (F := Ideal)) X (Proc.devRef .tc main_v1) = srcRow (X (Proc.devRef .tc main_arg1)) := by
  after_results_simp; rfl
theorem A_dstRow : after (opsA (F := Ideal)) X (Proc.devRef .tc main_v3) = dstRow (X (Proc.devRef .tc main_arg1)) := by
  after_results_simp; rfl
/-- After the first stretch: the first layer's product. -/
theorem A_lin : after (opsA (F := Ideal)) X (Proc.devRef .tc main_v4) = Ref.lin1 (X (Proc.devRef .tc main_arg0)) (X (Proc.devRef .tc main_arg2)) := by
  after_results_simp; rfl
/-- After the first stretch: the endpoint lists and the edge weights. -/
theorem A_srcs : after (opsA (F := Ideal)) X (Proc.devRef .tc main_v6) = srcs (X (Proc.devRef .tc main_arg1)) := by
  after_results_simp; rfl
theorem A_dsts : after (opsA (F := Ideal)) X (Proc.devRef .tc main_v7) = dsts (X (Proc.devRef .tc main_arg1)) := by
  after_results_simp; rfl
theorem A_weights : after (opsA (F := Ideal)) X (Proc.devRef .tc main_v29) = edgeWeight (X (Proc.devRef .tc main_arg1)) := by
  after_results_simp; rfl
/-- The first stretch writes no argument. -/
theorem A_arg3 : after (opsA (F := Ideal)) X (Proc.devRef .tc main_arg3) = X (Proc.devRef .tc main_arg3) := by
  after_results_simp
theorem A_arg4 : after (opsA (F := Ideal)) X (Proc.devRef .tc main_arg4) = X (Proc.devRef .tc main_arg4) := by
  after_results_simp
theorem A_arg5 : after (opsA (F := Ideal)) X (Proc.devRef .tc main_arg5) = X (Proc.devRef .tc main_arg5) := by
  after_results_simp

/-- After the second stretch: the second layer's input stage applied to the 16-feature aggregate. -/
theorem B_hidden : after (opsB (F := Ideal)) X (Proc.devRef .tc main_v47)
    = Ref.lin2 (aggCore16 (X (Proc.devRef .tc main_v4)) (X (Proc.devRef .tc main_v6)) (X (Proc.devRef .tc main_v7)) (X (Proc.devRef .tc main_v29)))
        (X (Proc.devRef .tc main_arg3)) (X (Proc.devRef .tc main_arg4)) := by
  rw [opsB_eq]
  after_results_simp; rfl
/-- The second stretch writes neither row of the edge list, nor the last argument. -/
theorem B_srcRow : after (opsB (F := Ideal)) X (Proc.devRef .tc main_v1) = X (Proc.devRef .tc main_v1) := by
  after_results_simp
theorem B_dstRow : after (opsB (F := Ideal)) X (Proc.devRef .tc main_v3) = X (Proc.devRef .tc main_v3) := by
  after_results_simp
theorem B_arg5 : after (opsB (F := Ideal)) X (Proc.devRef .tc main_arg5) = X (Proc.devRef .tc main_arg5) := by
  after_results_simp

/-- After the third stretch: the endpoint lists again, from the two rows and a fresh list of self-loops, and the weights
    from them. -/
theorem C_srcs : after (opsC (F := Ideal)) X (Proc.devRef .tc main_v49) = withLoops (X (Proc.devRef .tc main_v1)) := by
  after_results_simp; rfl
theorem C_dsts : after (opsC (F := Ideal)) X (Proc.devRef .tc main_v50) = withLoops (X (Proc.devRef .tc main_v3)) := by
  after_results_simp; rfl
theorem C_weights : after (opsC (F := Ideal)) X (Proc.devRef .tc main_v72)
    = weightsOf (withLoops (X (Proc.devRef .tc main_v1))) (withLoops (X (Proc.devRef .tc main_v3))) := by
  after_results_simp; rfl
/-- The third stretch writes neither the second layer's input stage nor the last argument. -/
theorem C_hidden : after (opsC (F := Ideal)) X (Proc.devRef .tc main_v47) = X (Proc.devRef .tc main_v47) := by
  after_results_simp
theorem C_arg5 : after (opsC (F := Ideal)) X (Proc.devRef .tc main_arg5) = X (Proc.devRef .tc main_arg5) := by
  after_results_simp

/-- After the fourth stretch: the logits, the second bias added to the 10-feature aggregate. -/
theorem D_logits : after (opsD (F := Ideal)) X (Proc.devRef .tc main_v88)
    = Ref.logits (aggCore10 (X (Proc.devRef .tc main_v47)) (X (Proc.devRef .tc main_v49)) (X (Proc.devRef .tc main_v50)) (X (Proc.devRef .tc main_v72)))
        (X (Proc.devRef .tc main_arg5)) := by
  after_results_simp; rfl

/-- After the fifth stretch: the row-wise log-softmax of the logits. -/
theorem E_out : after (opsE (F := Ideal)) X (Proc.devRef .tc main_v89) = Ref.logSoftmax (X (Proc.devRef .tc main_v88)) := by
  rw [opsE_eq]
  after_results_simp; rfl

end Stretches

/-! ## The five stretches composed -/

/-- From any buffer contents L, the five stretches in a row leave in the result buffer the network's function of L's
    six arguments: the second computation of the endpoint lists and weights reads the same two rows as the first and
    appends the same self-loops, so it gives the same lists and weights; the three dense stages are the specification's. -/
theorem walk (L : Valuation τ sig (Elt Ideal)) :
    after (opsA (F := Ideal) ++ opsB ++ opsC ++ opsD ++ opsE) L (Proc.devRef .tc main_v89)
      = gcn (L (Proc.devRef .tc main_arg0)) (L (Proc.devRef .tc main_arg1)) (L (Proc.devRef .tc main_arg2))
          (L (Proc.devRef .tc main_arg3)) (L (Proc.devRef .tc main_arg4)) (L (Proc.devRef .tc main_arg5)) := by
  rw [after_append, after_append, after_append, after_append]
  rw [E_out, D_logits, C_hidden, C_srcs, C_dsts, C_weights, C_arg5, B_hidden, B_srcRow, B_dstRow, B_arg5,
    A_lin, A_srcs, A_dsts, A_weights, A_srcRow, A_dstRow, A_arg3, A_arg4, A_arg5]
  rw [withLoops_srcRow, withLoops_dstRow, weightsOf_ends, Ref.head_eq, Ref.lin2_eq, Ref.lin1_eq]
  rfl

end Reading

/-- The fold of the reference's operations over the launch contents, read at the result buffer, is the network's
    function of the launch contents of the six arguments. -/
theorem result (m : (ℓ : Loc nD τ sig) → Buf (Elt Ideal) ℓ) (c : Dev nD) :
    after (Cert.ReferenceIdeal.RunCopy.ops (F := Ideal)) (launchContents m c) (Proc.devRef .tc main_v89)
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [ops_eq (F := Ideal)]
  exact walk (launchContents m c)

end Cert.Gcn.RefValue

end
-- ==== Proof.lean ====
/-
  A two-layer graph convolution with a log-softmax head, computed two ways.

  With Â = D^(-1/2) (A + I) D^(-1/2) the normalised message-passing operator of the edge list (a self-loop on every
  node, degrees counted with it and floored at one), both programs compute
      out = logSoftmax (Â (relu (Â (x w1) + b1) w2) + b2).
  The kernel program runs the three dense stages — x w1; relu (· + b1) w2; logSoftmax (· + b2) — as kernel calls that
  walk the 100000 rows in ten blocks of 10000, and keeps the gather, scale and scatter of message passing on the host;
  the reference does everything on the host with whole arrays.

  Why they agree over the extended reals. Each dense stage works row by row: row p of its result depends on row p of its
  first operand only, so the ten blocks of rows, each the stage applied to a block, tile the stage applied to the whole
  array. The narrowing of a product's operands to bf16 is the identity there, and a product into a zero accumulator
  and the host's contraction are both the plain sum over the contracted coordinate. The host's log-softmax takes the
  row maximum from minus infinity and then once more against minus infinity, which changes nothing. The message
  passing is the same host operations in both programs, applied to equal operands; nothing is used of it but that.
  No law that needs finiteness is used, so the precondition is never opened.

  The frames of the two kernel programs are the generated ones; the reference's frame is its run with every buffer at
  the fold of its operations, none of which writes an argument. The ideal pass rewrote nothing, so the kernel's
  idealization is its own text.
-/
import proofs.«157897_j51445118271702_1_alg».proof.Defs
import proofs.«157897_j51445118271702_1_alg».proof.Proof.Gen.Kernel
import proofs.«157897_j51445118271702_1_alg».proof.Proof.Gen.Kernel.Frame
import proofs.«157897_j51445118271702_1_alg».proof.Proof.Gen.KernelIdeal
import proofs.«157897_j51445118271702_1_alg».proof.Proof.Gen.KernelIdeal.Frame
import proofs.«157897_j51445118271702_1_alg».proof.Proof.Gen.ReferenceIdeal
import proofs.«157897_j51445118271702_1_alg».proof.Proof.Gen.Pre_finite_inputs
import proofs.«157897_j51445118271702_1_alg».proof.Proof.ResultRun
import proofs.«157897_j51445118271702_1_alg».proof.Proof.KernelValue
import proofs.«157897_j51445118271702_1_alg».proof.Proof.RefRun
import proofs.«157897_j51445118271702_1_alg».proof.Proof.RefKeeps
import proofs.«157897_j51445118271702_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-- The kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference terminates without a fault, and none of its operations writes an argument. -/
theorem frame_referenceIdeal : Cert.frame_ReferenceIdeal := fun m ρ _ =>
  (θ_run Cert.ReferenceIdeal.defs _ _).mono
    (fun _ h c =>
      ⟨(h c Cert.ReferenceIdeal.main_arg0).trans (Cert.Gcn.RefKeeps.arg0 _),
       (h c Cert.ReferenceIdeal.main_arg1).trans (Cert.Gcn.RefKeeps.arg1 _),
       (h c Cert.ReferenceIdeal.main_arg2).trans (Cert.Gcn.RefKeeps.arg2 _),
       (h c Cert.ReferenceIdeal.main_arg3).trans (Cert.Gcn.RefKeeps.arg3 _),
       (h c Cert.ReferenceIdeal.main_arg4).trans (Cert.Gcn.RefKeeps.arg4 _),
       (h c Cert.ReferenceIdeal.main_arg5).trans (Cert.Gcn.RefKeeps.arg5 _)⟩)
    (Cert.ReferenceIdeal.RunCopy.run (F := Ideal) m ρ)

/-- The ideal pass rewrote no operation. -/
theorem preserves : Cert.preserves_Kernel_KernelIdeal := trivial

/-- From memories that agree on the six arguments both programs end with the network's function of them in their
    result arrays: the kernel program by reading its boundaries backwards through the three calls, the reference by
    walking its operations. -/
theorem algebraic : Cert.algebraic_KernelIdeal_ReferenceIdeal := by
  intro m ρ m' ρ' _ hagree
  refine ⟨fun c => Cert.Gcn.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.KernelValue.result m ρ c), (h c).2⟩)
      (Cert.KernelIdeal.ResultRun.run_result (F := Ideal) m ρ)
  · refine (θ_run Cert.ReferenceIdeal.defs _ _).mono (fun _ h c => ?_) (Cert.ReferenceIdeal.RunCopy.run (F := Ideal) m' ρ')
    refine ⟨?_,
       (h c Cert.ReferenceIdeal.main_arg0).trans (Cert.Gcn.RefKeeps.arg0 _),
       (h c Cert.ReferenceIdeal.main_arg1).trans (Cert.Gcn.RefKeeps.arg1 _),
       (h c Cert.ReferenceIdeal.main_arg2).trans (Cert.Gcn.RefKeeps.arg2 _),
       (h c Cert.ReferenceIdeal.main_arg3).trans (Cert.Gcn.RefKeeps.arg3 _),
       (h c Cert.ReferenceIdeal.main_arg4).trans (Cert.Gcn.RefKeeps.arg4 _),
       (h c Cert.ReferenceIdeal.main_arg5).trans (Cert.Gcn.RefKeeps.arg5 _)⟩
    refine (h c Cert.ReferenceIdeal.main_v89).trans ((Cert.Gcn.RefValue.result m' c).trans ?_)
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
